-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x256 : Shape := ⟨2, ![150000, 256]⟩
abbrev S150000 : Shape := ⟨1, ![150000]⟩
abbrev S256x256 : Shape := ⟨2, ![256, 256]⟩
abbrev S256 : Shape := ⟨1, ![256]⟩
abbrev S768x256 : Shape := ⟨2, ![768, 256]⟩
abbrev S_ : Shape := ⟨0, ![]⟩

class Facts : Prop where
  bcast_S_S150000x256 : S_.BroadcastsInDim S150000x256 (![] : Fin 0 → Fin S150000x256.rank)
  reducesTo_S150000x256_S_d0_1 : S150000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_

variable [Facts]

def fn_part2 {F : FTy → Type} [FloatOps F] (main_arg11 : FVec F S256 .f32) (main_arg12 : FVec F S768x256 .f32) (main_arg13 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x256 .f32 := Host.absf main_arg12
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg8 : FVec F S256x256 .f32) (main_arg9 : FVec F S256 .f32) (main_arg10 : FVec F S768x256 .f32) (main_arg11 : FVec F S256 .f32) (main_arg12 : FVec F S768x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S768x256 .f32 := Host.absf main_arg10
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg11 main_arg12 main_arg13 main_v33

def fn {F : FTy → Type} [FloatOps F] (main_arg0 : FVec F S150000x256 .f32) (main_arg1 : FVec F S150000x256 .f32) (main_arg2 : IVec S150000 32) (main_arg3 : IVec S150000 32) (main_arg4 : IVec S150000 32) (main_arg5 : IVec S150000 32) (main_arg6 : FVec F S256x256 .f32) (main_arg7 : FVec F S256 .f32) (main_arg8 : FVec F S256x256 .f32) (main_arg9 : FVec F S256 .f32) (main_arg10 : FVec F S768x256 .f32) (main_arg11 : FVec F S256 .f32) (main_arg12 : FVec F S768x256 .f32) (main_arg13 : FVec F S256 .f32) : IVec S_ 1 :=
  let main_v0 : FVec F S150000x256 .f32 := Host.absf main_arg0
  let main_cst : FVec F S_ .f32 := constant S_ .f32 0x7F800000#32
  let main_v1 : FVec F S150000x256 .f32 := broadcastInDim S150000x256 ![] bcast_S_S150000x256 main_cst
  let main_v2 : IVec S150000x256 1 := cmpf .olt main_v0 main_v1
  let main_c : IVec S_ 1 := constantI S_ 1 1#1
  let main_v3 : IVec S_ 1 := (fun x v => Host.reduce IntOp.andi x v reducesTo_S150000x256_S_d0_1 h_S_) main_v2 main_c
  let main_v4 : FVec F S150000x256 .f32 := Host.absf main_arg1
  let main_cst_0 : FVec F S_ .f32 := constant S_ .f32 0x7F800000#32
  let main_v5 : FVec F S150000x256 .f32 := broadcastInDim S150000x256 ![] bcast_S_S150000x256 main_cst_0
  let main_v6 : IVec S150000x256 1 := cmpf .olt main_v4 main_v5
  let main_c_1 : IVec S_ 1 := constantI S_ 1 1#1
  let main_v7 : IVec S_ 1 := (fun x v => Host.reduce IntOp.andi x v reducesTo_S150000x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_v13 main_v16
-- ==== Kernel.lean ====
abbrev S150000x256 : Shape := ⟨2, ![150000, 256]⟩
abbrev S150000 : Shape := ⟨1, ![150000]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S5000x256 : Shape := ⟨2, ![5000, 256]⟩
abbrev S_ : Shape := ⟨0, ![]⟩
abbrev S50000x256 : Shape := ⟨2, ![50000, 256]⟩
abbrev S150000x1 : Shape := ⟨2, ![150000, 1]⟩
abbrev S50000x1 : Shape := ⟨2, ![50000, 1]⟩
abbrev S2000x256 : Shape := ⟨2, ![2000, 256]⟩

abbrev nBuf : Space → Nat
  | .hbm => 94
  | .vmem => 36
  | .smem => 0
  | _ => 0

abbrev bufTy : (tb : Table) → Fin (tcTables nBuf tb) → BufTy
  | .hbm, ⟨0, _⟩ => ⟨S150000x256, .f32⟩
  | .hbm, ⟨1, _⟩ => ⟨S150000x256, .f32⟩
  | .hbm, ⟨2, _⟩ => ⟨S150000, .i32⟩
  | .hbm, ⟨3, _⟩ => ⟨S150000, .i32⟩
  | .hbm, ⟨4, _⟩ => ⟨S150000, .i32⟩
  | .hbm, ⟨5, _⟩ => ⟨S150000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S256, .f32⟩
  | .hbm, ⟨12, _⟩ => ⟨S768x256, .f32⟩
  | .hbm, ⟨13, _⟩ => ⟨S256, .f32⟩
  | .hbm, ⟨14, _⟩ => ⟨S1x256, .f32⟩
  | .hbm, ⟨15, _⟩ => ⟨S150000x256, .f32⟩
  | .hbm, ⟨16, _⟩ => ⟨S1x256, .f32⟩
  | .hbm, ⟨17, _⟩ => ⟨S150000x256, .f32⟩
  | .hbm, ⟨18, _⟩ => ⟨S_, .f32⟩
  | .hbm, ⟨19, _⟩ => ⟨S50000x256, .f32⟩
  | .hbm, ⟨20, _⟩ => ⟨S150000x1, .i32⟩
  | .hbm, ⟨21, _⟩ => ⟨S50000x256, .f32⟩
  | .hbm, ⟨22, _⟩ => ⟨S_, .f32⟩
  | .hbm, ⟨23, _⟩ => ⟨S150000x1, .f32⟩
  | .hbm, ⟨24, _⟩ => ⟨S_, .f32⟩
  | .hbm, ⟨25, _⟩ => ⟨S50000x1, .f32⟩
  | .hbm, ⟨26, _⟩ => ⟨S150000x1, .i32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S50000x256, .f32⟩
  | .hbm, ⟨32, _⟩ => ⟨S50000x256, .f32⟩
  | .hbm, ⟨33, _⟩ => ⟨S_, .f32⟩
  | .hbm, ⟨34, _⟩ => ⟨S50000x256, .f32⟩
  | .hbm, ⟨35, _⟩ => ⟨S150000x1, .i32⟩
  | .hbm, ⟨36, _⟩ => ⟨S50000x256, .f32⟩
  | .hbm, ⟨37, _⟩ => ⟨S_, .f32⟩
  | .hbm, ⟨38, _⟩ => ⟨S150000x1, .f32⟩
  | .hbm, ⟨39, _⟩ => ⟨S_, .f32⟩
  | .hbm, ⟨40, _⟩ => ⟨S50000x1, .f32⟩
  | .hbm, ⟨41, _⟩ => ⟨S150000x1, .i32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S150000, .i32⟩
  | .hbm, ⟨50, _⟩ => ⟨S150000, .i1⟩
  | .hbm, ⟨51, _⟩ => ⟨S_, .i32⟩
  | .hbm, ⟨52, _⟩ => ⟨S150000, .i32⟩
  | .hbm, ⟨53, _⟩ => ⟨S150000, .i32⟩
  | .hbm, ⟨54, _⟩ => ⟨S150000, .i32⟩
  | .hbm, ⟨55, _⟩ => ⟨S150000x1, .i32⟩
  | .hbm, ⟨56, _⟩ => ⟨S150000x256, .f32⟩
  | .hbm, ⟨57, _⟩ => ⟨S_, .i32⟩
  | .hbm, ⟨58, _⟩ => ⟨S150000, .i32⟩
  | .hbm, ⟨59, _⟩ => ⟨S150000, .i1⟩
  | .hbm, ⟨60, _⟩ => ⟨S_, .i32⟩
  | .hbm, ⟨61, _⟩ => ⟨S150000, .i32⟩
  | .hbm, ⟨62, _⟩ => ⟨S150000, .i32⟩
  | .hbm, ⟨63, _⟩ => ⟨S150000, .i32⟩
  | .hbm, ⟨64, _⟩ => ⟨S150000x1, .i32⟩
  | .hbm, ⟨65, _⟩ => ⟨S150000x256, .f32⟩
  | .hbm, ⟨66, _⟩ => ⟨S_, .i32⟩
  | .hbm, ⟨67, _⟩ => ⟨S150000, .i32⟩
  | .hbm, ⟨68, _⟩ => ⟨S150000, .i1⟩
  | .hbm, ⟨69, _⟩ => ⟨S_, .i32⟩
  | .hbm, ⟨70, _⟩ => ⟨S150000, .i32⟩
  | .hbm, ⟨71, _⟩ => ⟨S150000, .i32⟩
  | .hbm, ⟨72, _⟩ => ⟨S150000, .i32⟩
  | .hbm, ⟨73, _⟩ => ⟨S150000x1, .i32⟩
  | .hbm, ⟨74, _⟩ => ⟨S150000x256, .f32⟩
  | .hbm, ⟨75, _⟩ => ⟨S_, .i32⟩
  | .hbm, ⟨76, _⟩ => ⟨S150000, .i32⟩
  | .hbm, ⟨77, _⟩ => ⟨S150000, .i1⟩
  | .hbm, ⟨78, _⟩ => ⟨S_, .i32⟩
  | .hbm, ⟨79, _⟩ => ⟨S150000, .i32⟩
  | .hbm, ⟨80, _⟩ => ⟨S150000, .i32⟩
  | .hbm, ⟨81, _⟩ => ⟨S150000, .i32⟩
  | .hbm, ⟨82, _⟩ => ⟨S150000x1, .i32⟩
  | .hbm, ⟨83, _⟩ => ⟨S150000x256, .f32⟩
  | .hbm, ⟨84, _⟩ => ⟨S256x256, .f32⟩
  | .hbm, ⟨85, _⟩ => ⟨S256x256, .f32⟩
  | .hbm, ⟨86, _⟩ => ⟨S256x256, .f32⟩
  | .hbm, ⟨87, _⟩ => ⟨S1x256, .f32⟩
  | .hbm, ⟨88, _⟩ => ⟨S150000x256, .f32⟩
  | .hbm, ⟨89, _⟩ => ⟨S256x256, .f32⟩
  | .hbm, ⟨90, _⟩ => ⟨S256x256, .f32⟩
  | .hbm, ⟨91, _⟩ => ⟨S256x256, .f32⟩
  | .hbm, ⟨92, _⟩ => ⟨S1x256, .f32⟩
  | .hbm, ⟨93, _⟩ => ⟨S150000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | _, _ => ⟨S150000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_c_13 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S50000x256 : S_.BroadcastsInDim S50000x256 (![] : Fin 0 → Fin S50000x256.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S150000 : S_.BroadcastsInDim S150000 (![] : Fin 0 → Fin S150000.rank)
  slices_S768x256_S256x256_0_0 : S768x256.Slices ![0, 0] S256x256
  slices_S768x256_S256x256_256_0 : S768x256.Slices ![256, 0] S256x256
  slices_S768x256_S256x256_512_0 : S768x256.Slices ![512, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S256x256_S256x256 : S256x256.ShapeCasts S256x256
  broadcasts_S1x256_S2000x256 : S1x256.Broadcasts S2000x256
  dot_S5000x256_S256x256_S5000x256_1_0_0_1_n_n_wf : DotDims.WF S5000x256 S256x256 S5000x256 [1] [0] [0] [1] [] []
  scatter_S50000x256_S150000x1_S150000x256_1_0_0_1_wf : ScatterDims.WF S50000x256 S150000x1 S150000x256 [1] [0] [0] 1
  scatter_S50000x1_S150000x1_S150000x1_1_0_0_1_wf : ScatterDims.WF S50000x1 S150000x1 S150000x1 [1] [0] [0] 1
  gather_S50000x256_S150000x1_S150000x256_1_0_n_n_0_1_1256_wf : GatherDims.WF S50000x256 S150000x1 S150000x256 [1] [0] [] [0] [] 1 ![1, 256]
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S150000x256.size a
  hwx0_0 : ∀ i : grid0.Coords, EltTy.bits .f32 = 32 ∨ (Rect.block (s := S150000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S150000x256.size a
  hwx0_3 : ∀ i : grid0.Coords, EltTy.bits .f32 = 32 ∨ (Rect.block (s := S150000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S150000x256.size a
  hwx1_0 : ∀ i : grid1.Coords, EltTy.bits .f32 = 32 ∨ (Rect.block (s := S150000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S150000x256.size a
  hwx1_3 : ∀ i : grid1.Coords, EltTy.bits .f32 = 32 ∨ (Rect.block (s := S150000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S150000x256.size a
  hwx2_0 : ∀ i : grid2.Coords, EltTy.bits .f32 = 32 ∨ (Rect.block (s := S150000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S150000x256.size a
  hwx2_1 : ∀ i : grid2.Coords, EltTy.bits .f32 = 32 ∨ (Rect.block (s := S150000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S150000x256.size a
  hwx2_2 : ∀ i : grid2.Coords, EltTy.bits .f32 = 32 ∨ (Rect.block (s := S150000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S150000x256.size a
  hwx2_7 : ∀ i : grid2.Coords, EltTy.bits .f32 = 32 ∨ (Rect.block (s := S150000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S150000x256.size a
  hwx3_0 : ∀ i : grid3.Coords, EltTy.bits .f32 = 32 ∨ (Rect.block (s := S150000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S150000x256.size a
  hwx3_1 : ∀ i : grid3.Coords, EltTy.bits .f32 = 32 ∨ (Rect.block (s := S150000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S150000x256.size a
  hwx3_2 : ∀ i : grid3.Coords, EltTy.bits .f32 = 32 ∨ (Rect.block (s := S150000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S150000x256.size a
  hwx3_7 : ∀ i : grid3.Coords, EltTy.bits .f32 = 32 ∨ (Rect.block (s := S150000x256) S2000x256.size (cc3_transform_7 i) (hinb3_7 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000x256_S150000x1_S150000x256_1_0_0_1 : ScatterDims S50000x256 S150000x1 S150000x256 where
  updateWindowDims := [1]
  insertedWindowDims := [0]
  scatterDimsToOperandDims := [0]
  indexVectorDim := 1
  wf := scatter_S50000x256_S150000x1_S150000x256_1_0_0_1_wf
def scatter_S50000x1_S150000x1_S150000x1_1_0_0_1 : ScatterDims S50000x1 S150000x1 S150000x1 where
  updateWindowDims := [1]
  insertedWindowDims := [0]
  scatterDimsToOperandDims := [0]
  indexVectorDim := 1
  wf := scatter_S50000x1_S150000x1_S150000x1_1_0_0_1_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S150000x256 : Shape := ⟨2, ![150000, 256]⟩
abbrev S150000 : Shape := ⟨1, ![150000]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S_ : Shape := ⟨0, ![]⟩
abbrev S50000x256 : Shape := ⟨2, ![50000, 256]⟩
abbrev S150000x1 : Shape := ⟨2, ![150000, 1]⟩
abbrev S50000x1 : Shape := ⟨2, ![50000, 1]⟩
abbrev S150000x768 : Shape := ⟨2, ![150000, 768]⟩

abbrev nBuf : Space → Nat
  | .hbm => 112
  | .vmem => 0
  | .smem => 0
  | _ => 0

abbrev bufTy : (tb : Table) → Fin (tcTables nBuf tb) → BufTy
  | .hbm, ⟨0, _⟩ => ⟨S150000x256, .f32⟩
  | .hbm, ⟨1, _⟩ => ⟨S150000x256, .f32⟩
  | .hbm, ⟨2, _⟩ => ⟨S150000, .i32⟩
  | .hbm, ⟨3, _⟩ => ⟨S150000, .i32⟩
  | .hbm, ⟨4, _⟩ => ⟨S150000, .i32⟩
  | .hbm, ⟨5, _⟩ => ⟨S150000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S256, .f32⟩
  | .hbm, ⟨12, _⟩ => ⟨S768x256, .f32⟩
  | .hbm, ⟨13, _⟩ => ⟨S256, .f32⟩
  | .hbm, ⟨14, _⟩ => ⟨S150000x256, .f32⟩
  | .hbm, ⟨15, _⟩ => ⟨S1x256, .f32⟩
  | .hbm, ⟨16, _⟩ => ⟨S150000x256, .f32⟩
  | .hbm, ⟨17, _⟩ => ⟨S150000x256, .f32⟩
  | .hbm, ⟨18, _⟩ => ⟨S_, .f32⟩
  | .hbm, ⟨19, _⟩ => ⟨S150000x256, .f32⟩
  | .hbm, ⟨20, _⟩ => ⟨S150000x256, .i1⟩
  | .hbm, ⟨21, _⟩ => ⟨S_, .f32⟩
  | .hbm, ⟨22, _⟩ => ⟨S150000x256, .f32⟩
  | .hbm, ⟨23, _⟩ => ⟨S150000x256, .f32⟩
  | .hbm, ⟨24, _⟩ => ⟨S150000x256, .f32⟩
  | .hbm, ⟨25, _⟩ => ⟨S150000x256, .f32⟩
  | .hbm, ⟨26, _⟩ => ⟨S1x256, .f32⟩
  | .hbm, ⟨27, _⟩ => ⟨S150000x256, .f32⟩
  | .hbm, ⟨28, _⟩ => ⟨S150000x256, .f32⟩
  | .hbm, ⟨29, _⟩ => ⟨S_, .f32⟩
  | .hbm, ⟨30, _⟩ => ⟨S150000x256, .f32⟩
  | .hbm, ⟨31, _⟩ => ⟨S150000x256, .i1⟩
  | .hbm, ⟨32, _⟩ => ⟨S_, .f32⟩
  | .hbm, ⟨33, _⟩ => ⟨S150000x256, .f32⟩
  | .hbm, ⟨34, _⟩ => ⟨S150000x256, .f32⟩
  | .hbm, ⟨35, _⟩ => ⟨S150000x256, .f32⟩
  | .hbm, ⟨36, _⟩ => ⟨S_, .f32⟩
  | .hbm, ⟨37, _⟩ => ⟨S50000x256, .f32⟩
  | .hbm, ⟨38, _⟩ => ⟨S150000x1, .i32⟩
  | .hbm, ⟨39, _⟩ => ⟨S50000x256, .f32⟩
  | .hbm, ⟨40, _⟩ => ⟨S_, .f32⟩
  | .hbm, ⟨41, _⟩ => ⟨S150000x1, .f32⟩
  | .hbm, ⟨42, _⟩ => ⟨S_, .f32⟩
  | .hbm, ⟨43, _⟩ => ⟨S50000x1, .f32⟩
  | .hbm, ⟨44, _⟩ => ⟨S150000x1, .i32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S150000x1, .i32⟩
  | .hbm, ⟨54, _⟩ => ⟨S50000x256, .f32⟩
  | .hbm, ⟨55, _⟩ => ⟨S_, .f32⟩
  | .hbm, ⟨56, _⟩ => ⟨S150000x1, .f32⟩
  | .hbm, ⟨57, _⟩ => ⟨S_, .f32⟩
  | .hbm, ⟨58, _⟩ => ⟨S50000x1, .f32⟩
  | .hbm, ⟨59, _⟩ => ⟨S150000x1, .i32⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S150000, .i32⟩
  | .hbm, ⟨68, _⟩ => ⟨S150000, .i1⟩
  | .hbm, ⟨69, _⟩ => ⟨S_, .i32⟩
  | .hbm, ⟨70, _⟩ => ⟨S150000, .i32⟩
  | .hbm, ⟨71, _⟩ => ⟨S150000, .i32⟩
  | .hbm, ⟨72, _⟩ => ⟨S150000, .i32⟩
  | .hbm, ⟨73, _⟩ => ⟨S150000x1, .i32⟩
  | .hbm, ⟨74, _⟩ => ⟨S150000x256, .f32⟩
  | .hbm, ⟨75, _⟩ => ⟨S_, .i32⟩
  | .hbm, ⟨76, _⟩ => ⟨S150000, .i32⟩
  | .hbm, ⟨77, _⟩ => ⟨S150000, .i1⟩
  | .hbm, ⟨78, _⟩ => ⟨S_, .i32⟩
  | .hbm, ⟨79, _⟩ => ⟨S150000, .i32⟩
  | .hbm, ⟨80, _⟩ => ⟨S150000, .i32⟩
  | .hbm, ⟨81, _⟩ => ⟨S150000, .i32⟩
  | .hbm, ⟨82, _⟩ => ⟨S150000x1, .i32⟩
  | .hbm, ⟨83, _⟩ => ⟨S150000x256, .f32⟩
  | .hbm, ⟨84, _⟩ => ⟨S150000x768, .f32⟩
  | .hbm, ⟨85, _⟩ => ⟨S150000x256, .f32⟩
  | .hbm, ⟨86, _⟩ => ⟨S1x256, .f32⟩
  | .hbm, ⟨87, _⟩ => ⟨S150000x256, .f32⟩
  | .hbm, ⟨88, _⟩ => ⟨S150000x256, .f32⟩
  | .hbm, ⟨89, _⟩ => ⟨S_, .i32⟩
  | .hbm, ⟨90, _⟩ => ⟨S150000, .i32⟩
  | .hbm, ⟨91, _⟩ => ⟨S150000, .i1⟩
  | .hbm, ⟨92, _⟩ => ⟨S_, .i32⟩
  | .hbm, ⟨93, _⟩ => ⟨S150000, .i32⟩
  | .hbm, ⟨94, _⟩ => ⟨S150000, .i32⟩
  | .hbm, ⟨95, _⟩ => ⟨S150000, .i32⟩
  | .hbm, ⟨96, _⟩ => ⟨S150000x1, .i32⟩
  | .hbm, ⟨97, _⟩ => ⟨S150000x256, .f32⟩
  | .hbm, ⟨98, _⟩ => ⟨S_, .i32⟩
  | .hbm, ⟨99, _⟩ => ⟨S150000, .i32⟩
  | .hbm, ⟨100, _⟩ => ⟨S150000, .i1⟩
  | .hbm, ⟨101, _⟩ => ⟨S_, .i32⟩
  | .hbm, ⟨102, _⟩ => ⟨S150000, .i32⟩
  | .hbm, ⟨103, _⟩ => ⟨S150000, .i32⟩
  | .hbm, ⟨104, _⟩ => ⟨S150000, .i32⟩
  | .hbm, ⟨105, _⟩ => ⟨S150000x1, .i32⟩
  | .hbm, ⟨106, _⟩ => ⟨S150000x256, .f32⟩
  | .hbm, ⟨107, _⟩ => ⟨S150000x768, .f32⟩
  | .hbm, ⟨108, _⟩ => ⟨S150000x256, .f32⟩
  | .hbm, ⟨109, _⟩ => ⟨S1x256, .f32⟩
  | .hbm, ⟨110, _⟩ => ⟨S150000x256, .f32⟩
  | .hbm, ⟨111, _⟩ => ⟨S150000x256, .f32⟩
  | _, _ => ⟨S150000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_cst_0 : Ref sig .tc := ⟨.hbm, 32, rfl⟩
abbrev main_call1_v2 : Ref sig .tc := ⟨.hbm, 33, rfl⟩
abbrev main_call1_v3 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_c_9 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_10 : Ref sig .tc := ⟨.hbm, 89, rfl⟩
abbrev main_v51 : Ref sig .tc := ⟨.hbm, 90, rfl⟩
abbrev main_v52 : Ref sig .tc := ⟨.hbm, 91, rfl⟩
abbrev main_c_11 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_12 : Ref sig .tc := ⟨.hbm, 98, rfl⟩
abbrev main_v58 : Ref sig .tc := ⟨.hbm, 99, rfl⟩
abbrev main_v59 : Ref sig .tc := ⟨.hbm, 100, rfl⟩
abbrev main_c_13 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S150000x256_0_1 : S1x256.BroadcastsInDim S150000x256 (![0, 1] : Fin 2 → Fin S150000x256.rank)
  bcast_S_S150000x256 : S_.BroadcastsInDim S150000x256 (![] : Fin 0 → Fin S150000x256.rank)
  bcast_S_S50000x256 : S_.BroadcastsInDim S50000x256 (![] : Fin 0 → Fin S50000x256.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S150000 : S_.BroadcastsInDim S150000 (![] : Fin 0 → Fin S150000.rank)
  concatenates_S150000x256_S150000x256_S150000x256_S150000x768_d1 : Shape.Concatenates [S150000x256, S150000x256, S150000x256] S150000x768 1
  dot_S150000x256_S256x256_S150000x256_1_0_0_1_n_n_wf : DotDims.WF S150000x256 S256x256 S150000x256 [1] [0] [0] [1] [] []
  scatter_S50000x256_S150000x1_S150000x256_1_0_0_1_wf : ScatterDims.WF S50000x256 S150000x1 S150000x256 [1] [0] [0] 1
  scatter_S50000x1_S150000x1_S150000x1_1_0_0_1_wf : ScatterDims.WF S50000x1 S150000x1 S150000x1 [1] [0] [0] 1
  gather_S50000x256_S150000x1_S150000x256_1_0_n_n_0_1_1256_wf : GatherDims.WF S50000x256 S150000x1 S150000x256 [1] [0] [] [0] [] 1 ![1, 256]
  dot_S150000x768_S768x256_S150000x256_1_0_0_1_n_n_wf : DotDims.WF S150000x768 S768x256 S150000x256 [1] [0] [0] [1] [] []

variable [Facts₀]

def dot_S150000x256_S256x256_S150000x256_1_0_0_1_n_n : DotDims S150000x256 S256x256 S150000x256 where
  lhsContracting := [1]
  rhsContracting := [0]
  lhsNonContracting := [0]
  rhsNonContracting := [1]
  lhsBatch := []
  rhsBatch := []
  wf := dot_S150000x256_S256x256_S150000x256_1_0_0_1_n_n_wf
def scatter_S50000x256_S150000x1_S150000x256_1_0_0_1 : ScatterDims S50000x256 S150000x1 S150000x256 where
  updateWindowDims := [1]
  insertedWindowDims := [0]
  scatterDimsToOperandDims := [0]
  indexVectorDim := 1
  wf := scatter_S50000x256_S150000x1_S150000x256_1_0_0_1_wf
def scatter_S50000x1_S150000x1_S150000x1_1_0_0_1 : ScatterDims S50000x1 S150000x1 S150000x1 where
  updateWindowDims := [1]
  insertedWindowDims := [0]
  scatterDimsToOperandDims := [0]
  indexVectorDim := 1
  wf := scatter_S50000x1_S150000x1_S150000x1_1_0_0_1_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def dot_S150000x768_S768x256_S150000x256_1_0_0_1_n_n : DotDims S150000x768 S768x256 S150000x256 where
  lhsContracting := [1]
  rhsContracting := [0]
  lhsNonContracting := [0]
  rhsNonContracting := [1]
  lhsBatch := []
  rhsBatch := []
  wf := dot_S150000x768_S768x256_S150000x256_1_0_0_1_n_n_wf

class Facts : Prop extends Facts₀ where

variable [Facts]
-- ==== Proof.Spec.lean ====
/-
  The mathematics of one graph layer, index by index, on the extended reals.

  Per edge type: a message is the leaky rectifier of an affine map of the edge feature,
    msg[r, j] = lrelu (Σ_k e[r, k] · W[k, j] + b[j]);
  the edge update is an affine map of three 256-wide rows laid side by side against a 768-row weight,
    upd[r, j] = Σ_k e[r, k] · We[k, j] + Σ_k s[r, k] · We[256 + k, j] + Σ_k d[r, k] · We[512 + k, j] + b[j],
  which is the 768-term contraction of the concatenated row split into its three blocks: a regrouping of one
  finite sum, valid on the extended reals with no finiteness assumption (addition there is commutative and
  associative).
-/
import Idealize.ShloMosaic.PureOps.Ideal
import Idealize.ShloMosaic.PureOps.Ideal.Laws
import Idealize.ShloMosaic.Lib.ValueIdx

noncomputable section

namespace Cert.GraphLayer

open Idealize.ShloMosaic Idealize.ShloMosaic.ValueIdx

/-- Edge features and messages: 150000 edges, 256 features. -/
abbrev SE : Shape := ⟨2, ![150000, 256]⟩
/-- A square weight. -/
abbrev SW : Shape := ⟨2, ![256, 256]⟩
/-- The edge update's stacked weight: three square blocks of rows. -/
abbrev SW3 : Shape := ⟨2, ![768, 256]⟩

/-- The leaky rectifier with the programs' slope literal: `x` where `x ≥ 0`, the slope times `x` elsewhere. -/
def lrelu (x : EReal) : EReal :=
  Scalar.select (FloatOps.cmpf (F := Ideal) (φ := .f32) .oge x (Ideal.ofBits .f32 0x00000000#32)) x
    (Ideal.ofBits .f32 0x3C23D70A#32 * x)

/-- One message entry: the rectified affine image of edge `r`'s features at output feature `j`. -/
def msgAt (e : SE.Idx → EReal) (W : SW.Idx → EReal) (b : Fin 256 → EReal) (r : Fin 150000) (j : Fin 256) : EReal :=
  lrelu ((∑ k : Fin 256, e (ix2 r k) * W (ix2 k j)) + b j)

/-- The message array. -/
def msgVal (e : SE.Idx → EReal) (W : SW.Idx → EReal) (b : Fin 256 → EReal) : SE.Idx → EReal :=
  fun i => msgAt e W b (i 0) (i 1)

/-- One updated edge entry from three rows and three square weights. -/
def updAt (e s d : SE.Idx → EReal) (We Ws Wd : SW.Idx → EReal) (b : Fin 256 → EReal) (r : Fin 150000) (j : Fin 256) : EReal :=
  (((∑ k : Fin 256, e (ix2 r k) * We (ix2 k j)) + ∑ k : Fin 256, s (ix2 r k) * Ws (ix2 k j))
    + ∑ k : Fin 256, d (ix2 r k) * Wd (ix2 k j)) + b j

/-- The updated edge array, three square weights given apart. -/
def updVal3 (e s d : SE.Idx → EReal) (We Ws Wd : SW.Idx → EReal) (b : Fin 256 → EReal) : SE.Idx → EReal :=
  fun i => updAt e s d We Ws Wd b (i 0) (i 1)

/-- The square block of a stacked weight that starts at row `o` (`o` = 0, 256 or 512). -/
def rowBlock (We : SW3.Idx → EReal) (o : Nat) (ho : o + 256 ≤ 768) : SW.Idx → EReal :=
  fun q => We (ix2 (⟨o + (q 0).val, by have := (q 0).isLt; have h : (q 0).val < 256 := this; omega⟩ : Fin 768) (q 1 : Fin 256))

/-- The updated edge array against the stacked weight. -/
def updVal (e s d : SE.Idx → EReal) (We : SW3.Idx → EReal) (b : Fin 256 → EReal) : SE.Idx → EReal :=
  updVal3 e s d (rowBlock We 0 (by norm_num)) (rowBlock We 256 (by norm_num)) (rowBlock We 512 (by norm_num)) b

end Cert.GraphLayer

end
-- ==== Proof.KernelTerms.lean ====
/-
  The host stretch between the kernel program's message regions and its edge-update regions, as terms: the mean of
  the messages arriving at each node and the node rows picked for each edge's ends. They are the reference's
  `meanAgg` and `rows`, operation for operation, over the kernel program's own shape records.
-/
import proofs.«113834_j57131654971883_1_alg».proof.KernelIdeal
import proofs.«113834_j57131654971883_1_alg».proof.Proof.Gen.KernelIdeal

noncomputable section

namespace Cert.KernelIdeal.Terms

open Idealize.ShloMosaic Cert.KernelIdeal Cert.KernelIdeal.Facts₀

variable {F : FTy → Type} [FloatOps F]

/-- The mean of the messages arriving at each node: their sum scattered by destination over the count of arrivals,
    the count taken as at least one. -/
def meanAgg (x : FVec F S150000x256 .f32) (dst : IVec S150000 32) : FVec F S50000x256 .f32 :=
  Host.divf
    (Host.scatterAdd scatter_S50000x256_S150000x1_S150000x256_1_0_0_1
      (broadcastInDim S50000x256 ![] bcast_S_S50000x256 (constant S_ .f32 0x00000000#32))
      (broadcastInDim S150000x1 ![0] bcast_S150000_S150000x1_0 dst) x)
    (broadcastInDim S50000x256 ![0, 1] bcast_S50000x1_S50000x256_0_1
      (maximumf
        (Host.scatterAdd scatter_S50000x1_S150000x1_S150000x1_1_0_0_1
          (broadcastInDim S50000x1 ![] bcast_S_S50000x1 (constant S_ .f32 0x00000000#32))
          (broadcastInDim S150000x1 ![0] bcast_S150000_S150000x1_0 dst)
          (broadcastInDim S150000x1 ![] bcast_S_S150000x1 (constant S_ .f32 0x3F800000#32)))
        (broadcastInDim S50000x1 ![] bcast_S_S50000x1 (constant S_ .f32 0x3F800000#32))))

/-- The rows of a node table picked by an index vector, a negative index counted from the end. -/
def rows (rel : FVec F S50000x256 .f32) (idx : IVec S150000 32) : FVec F S150000x256 .f32 :=
  Host.gather gather_S50000x256_S150000x1_S150000x256_1_0_n_n_0_1_1256 rel
    (broadcastInDim S150000x1 ![0] bcast_S150000_S150000x1_0
      (select (cmpi .slt idx (broadcastInDim S150000 ![] bcast_S_S150000 (constantI S_ 32 0#32)))
        (addi idx (broadcastInDim S150000 ![] bcast_S_S150000 (constantI S_ 32 50000#32))) idx))

end Cert.KernelIdeal.Terms

end
-- ==== Proof.MsgRegion0.lean ====
/-
  What the first message region leaves in its output array: every 5000-row block of the output is the body's
  result on the same rows of the edge features, and the thirty blocks tile the array, so the array is the message
  function `msgVal` of the region's three input arrays as the region finds them.
-/
import proofs.«113834_j57131654971883_1_alg».proof.Proof.Spec
import proofs.«113834_j57131654971883_1_alg».proof.Proof.Gen.KernelIdeal.Frame
import Idealize.ShloMosaic.Lib.Pipeline.Value
import Idealize.ShloMosaic.Lib.ValueLayout

set_option maxRecDepth 16384

noncomputable section

namespace Cert.KernelIdeal.MsgValue0

open Idealize.ShloMosaic Idealize.ShloMosaic.TcCoe Idealize.ShloMosaic.ValueIdx Idealize.SL.Sem
open Cert.KernelIdeal Cert.KernelIdeal.Gen Cert.GraphLayer

/-! ## The body's matrix product at an index -/

/-- The left operand's row coordinate is the output's row. -/
theorem lhs_row (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- The left operand's column coordinate is the contraction index. -/
theorem lhs_col (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q

/-- The right operand's row coordinate is the contraction index. -/
theorem rhs_row (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q

/-- The right operand's column coordinate is the output's column. -/
theorem rhs_col (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- A [5000,256] by [256,256] product into a zero accumulator, at row `p` and column `q`: the 256-term sum. -/
theorem matmul_at {φ₁ φ₂ : FTy} (a : FVec Ideal S5000x256 φ₁) (b : FVec Ideal S256x256 φ₂) (p : Fin 5000) (q : Fin 256) :
    matmul dot_S5000x256_S256x256_S5000x256_1_0_0_1_n_n none a b (constant (F := Ideal) S5000x256 .f32 0x00000000#32) (ix2 p q)
      = ∑ k : Fin 256, a (ix2 p k) * b (ix2 k q) := by
  refine (Ideal.matmul_constant_zero_apply dot_S5000x256_S256x256_S5000x256_1_0_0_1_n_n none a b (ix2 p q)).trans ?_
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x256_S5000x256_1_0_0_1_n_n.rhsIdx (ix2 p q)
      ((contrEquiv1 dot_S5000x256_S256x256_S5000x256_1_0_0_1_n_n 256 rfl rfl).symm k) = ix2 k q := funext fun a => Fin.ext (by
    match a with
    | ⟨0, _⟩ => exact (rhs_row _ _).trans hk
    | ⟨1, _⟩ => exact rhs_col _ _)
  rw [el, er]

/-- The bias row spread over the 5000 rows, at row `p` and column `q`: the row's entry `q`. -/
theorem bias_at (x2 : Vec Ideal S1x256 .f32) (h : S1x256.ShapeCasts S1x256) (h' : S1x256.Broadcasts S5000x256) (p : Fin 5000) (q : Fin 256) :
    broadcastTo S5000x256 (shapeCast S1x256 x2 h) h' (ix2 p q) = x2 (ix2 (0 : Fin 1) q) := by
  rw [shapeCast_self]
  refine broadcastTo_apply x2 h' (ix2 p q) (ix2 (0 : Fin 1) q) fun a => ?_
  match a with
  | ⟨0, _⟩ => rfl
  | ⟨1, _⟩ => rfl

/-! ## The body's result at an index -/

/-- The body's stored value at row `p`, column `q` of its block: the rectified affine image of row `p`. -/
theorem pay_at (x0 : Vec Ideal S5000x256 .f32) (x1 : Vec Ideal S256x256 .f32) (x2 : Vec Ideal S1x256 .f32) (p : Fin 5000) (q : Fin 256) :
    k0_pay1 x0 x1 x2 (ix2 p q) = lrelu ((∑ k : Fin 256, x0 (ix2 p k) * x1 (ix2 k q)) + x2 (ix2 (0 : Fin 1) q)) := by
  unfold k0_pay1
  refine Eq.trans ?_ (congrArg lrelu (congrArg₂ (· + ·) (matmul_at (truncf .bf16 x0 bitsLt_bf16_f32) (truncf .bf16 x1 bitsLt_bf16_f32) p q)
    (bias_at x2 shapeCasts_S1x256_S1x256 broadcasts_S1x256_S5000x256 p q)))
  rfl

/-- The same at an index of the block given whole. -/
theorem pay_idx (x0 : Vec Ideal S5000x256 .f32) (x1 : Vec Ideal S256x256 .f32) (x2 : Vec Ideal S1x256 .f32) (j : S5000x256.Idx) :
    k0_pay1 x0 x1 x2 j = lrelu ((∑ k : Fin 256, x0 (ix2 (j 0) k) * x1 (ix2 k (j 1))) + x2 (ix2 (0 : Fin 1) (j 1))) := by
  obtain ⟨p, q, rfl⟩ : ∃ (p : Fin 5000) (q : Fin 256), j = ix2 p q := ⟨j 0, j 1, eq_ix2 j⟩
  exact pay_at x0 x1 x2 p q

/-! ## From the thirty blocks to the array -/

theorem hz : (![0, 0] : Fin 2 → Nat) = fun _ => 0 := funext fun a => by fin_cases a <;> rfl

/-- The printed index maps, decided over the grid: the edge features' block moves with the output's block along the rows,
    the weight and the bias row stay whole, and the output's block row is the point's number. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the message array of the region's three inputs. -/
theorem flushed_eq (V : (c : Dev nD) → (b : Ref sig .tc) → Buf (Elt Ideal) ((c : Thread nD τ).loc b)) (c : Dev nD)
    (t : Fin cfg0.N) :
    (dat0 (F := Ideal) V c).flushed 3 t = ((cfg0.win 3).blk t).view.read (Elt Ideal)
      (msgVal (V c main_arg0) (V c main_arg6) (fun j => V c main_v0 (ix2 (0 : Fin 1) j))) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x256) hz, View.ld_unit_zero (S := S1x256) hz]
  obtain ⟨e0, e1, e2, e3, e4, e5, e6, e7⟩ := idx_facts t
  funext j
  show k0_pay1 (iblk0 V c 0 t) (iblk0 V c 1 t) (iblk0 V c 2 t) j
    = msgAt (V c main_arg0) (V c main_arg6) (fun j => V c main_v0 (ix2 (0 : Fin 1) j))
        ((((cfg0.win 3).blk t).view.emb j) 0) ((((cfg0.win 3).blk t).view.emb j) 1)
  refine (pay_idx _ _ _ j).trans ?_
  unfold msgAt
  have hj0 : (j 0).val < 5000 := (j 0).isLt
  have hj1 : (j 1).val < 256 := (j 1).isLt
  refine congrArg lrelu (congrArg₂ (· + ·) (Finset.sum_congr rfl fun k _ => congrArg₂ (· * ·) ?_ ?_) ?_)
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  · show V c main_arg6 (((cfg0.win 1).blk t).view.emb (ix2 k (j 1))) = V c main_arg6 (ix2 k ((((cfg0.win 3).blk t).view.emb j) 1))
    refine congrArg (V c main_arg6) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_3.index t (1 : Fin 2) * 256 + 1 * (j 1).val; omega
  · show V c main_v0 (((cfg0.win 2).blk t).view.emb (ix2 (0 : Fin 1) (j 1))) = V c main_v0 (ix2 (0 : Fin 1) ((((cfg0.win 3).blk t).view.emb j) 1))
    refine congrArg (V c main_v0) (funext fun a => Fin.ext ?_)
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega

/-- An index of the array is in point `t`'s block iff each coordinate is in the block's range on its axis. -/
theorem mem_blk (t : Fin cfg0.N) (i : S150000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v1).slice (win0_3.rect t)).set ↔ _
  rw [View.set_slice_whole, Rect.mem_set_unit]
  exact Iff.rfl

/-- Every index of the array is in the block of the point numbered by its row divided by 5000. -/
theorem covered (i : S150000x256.Idx) :
    ∃ t : Fin cfg0.N, (cfg0.win 3).flush t = true ∧ i ∈ ((cfg0.win 3).blk t).view.set := by
  have hi0 : (i 0).val < 150000 := (i 0).isLt
  have hi1 : (i 1).val < 256 := (i 1).isLt
  have hN : cfg0.N = 30 := (by decide : grid0.N = 30)
  let t : Fin cfg0.N := ⟨(i 0).val / 5000, by rw [hN]; omega⟩
  obtain ⟨e0, e1, e2, e3, e4, e5, e6, e7⟩ := idx_facts t
  have e6' : win0_3.index t (0 : Fin 2) = (i 0).val / 5000 := e6
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- The array region 0 leaves in `main_v1`, for any contents `V` the region is entered with. -/
theorem final (V : (c : Dev nD) → (b : Ref sig .tc) → Buf (Elt Ideal) ((c : Thread nD τ).loc b)) (c : Dev nD) :
    (dat0 (F := Ideal) V c).arrAt 3 cfg0.N
      = msgVal (V c main_arg0) (V c main_arg6) (fun j => V c main_v0 (ix2 (0 : Fin 1) j)) :=
  (dat0 (F := Ideal) V c).arrAt_eq_of_cover 3
    (msgVal (V c main_arg0) (V c main_arg6) (fun j => V c main_v0 (ix2 (0 : Fin 1) j)))
    (fun t _ => flushed_eq V c t) covered

end Cert.KernelIdeal.MsgValue0

end
-- ==== Proof.UpdRegion2.lean ====
/-
  What the first edge-update region leaves in its output array: every 2000-row block of the output is the body's
  result on the same rows of its three row inputs, and the seventy-five blocks tile the array, so the array is
  `updVal3` of the region's seven input arrays as the region finds them.
-/
import proofs.«113834_j57131654971883_1_alg».proof.Proof.Spec
import proofs.«113834_j57131654971883_1_alg».proof.Proof.Gen.KernelIdeal.Frame
import Idealize.ShloMosaic.Lib.Pipeline.Value
import Idealize.ShloMosaic.Lib.ValueLayout

set_option maxRecDepth 16384

noncomputable section

namespace Cert.KernelIdeal.UpdValue2

open Idealize.ShloMosaic Idealize.ShloMosaic.TcCoe Idealize.ShloMosaic.ValueIdx Idealize.SL.Sem
open Cert.KernelIdeal Cert.KernelIdeal.Gen Cert.GraphLayer

/-! ## One product of a row block by a square weight, at an index -/

/-- Axis 0 of the left operand is the output's row. -/
theorem lhs_axis0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- Axis 1 of the left operand is the contracted coordinate. -/
theorem lhs_axis1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

/-- Axis 0 of the right operand is the contracted coordinate. -/
theorem rhs_axis0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

/-- Axis 1 of the right operand is the output's column. -/
theorem rhs_axis1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product into a zero accumulator, at row `p` and column `q`, is the 256-term sum of products. -/
theorem matmul_at (A : FVec Ideal S2000x256 .bf16) (B : FVec Ideal S256x256 .bf16) (p : Fin 2000) (q : Fin 256) :
    matmul dot_S2000x256_S256x256_S2000x256_1_0_0_1_n_n none A B (constant S2000x256 .f32 0x00000000#32) (ix2 p q)
      = ∑ k : Fin 256, A (ix2 p k) * B (ix2 k q) := by
  refine (Ideal.matmul_constant_zero_apply dot_S2000x256_S256x256_S2000x256_1_0_0_1_n_n none A B (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The body's result at an index -/

/-- The body's stored value at row `p`, column `q` of its blocks: three 256-term products added, plus the bias row. -/
theorem payload_at (x0 x1 x2 : Vec Ideal S2000x256 .f32) (x3 x4 x5 : Vec Ideal S256x256 .f32) (x6 : Vec Ideal S1x256 .f32)
    (p : Fin 2000) (q : Fin 256) :
    k2_pay1 x0 x1 x2 x3 x4 x5 x6 (ix2 p q)
      = (((∑ k : Fin 256, x0 (ix2 p k) * x3 (ix2 k q)) + ∑ k : Fin 256, x1 (ix2 p k) * x4 (ix2 k q))
          + ∑ k : Fin 256, x2 (ix2 p k) * x5 (ix2 k q)) + x6 (ix2 (0 : Fin 1) q) := by
  unfold k2_pay1
  simp only [shapeCast_self]
  rw [addf_apply, addf_apply, addf_apply, matmul_at, matmul_at, matmul_at, broadcastTo_1b_ab_apply]
  rfl

/-! ## The blocks the body reads, as rows of the arrays -/

theorem hz : (![0, 0] : Fin 2 → Nat) = fun _ => 0 := funext fun a => by fin_cases a <;> rfl

/-- The printed index maps, decided over the grid: the three row windows and the output move one block of rows per
    point, the weights and the bias stay at block zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

section Blocks
variable (V : (c : Dev nD) → (b : Ref sig .tc) → Buf (Elt Ideal) ((c : Thread nD τ).loc b)) (c : Dev nD) (t : Fin cfg2.N)

/-- Row `p` of the first row input's block at point `t` is row `2000 t + p` of its array. -/
theorem iblk_rows0 (p : Fin 2000) (k : Fin 256) (r : Fin 150000) (hr : r.val = t.val * 2000 + p.val) :
    (iblk2 V c 0 t : Vec Ideal S2000x256 .f32) (ix2 p k) = V c main_arg0 (ix2 r k) := by
  obtain ⟨e0, e1, -⟩ := idx_facts t
  unfold iblk2
  rw [View.read_apply]
  show V c main_arg0 _ = V c main_arg0 _
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- The same for the second row input. -/
theorem iblk_rows1 (p : Fin 2000) (k : Fin 256) (r : Fin 150000) (hr : r.val = t.val * 2000 + p.val) :
    (iblk2 V c 1 t : Vec Ideal S2000x256 .f32) (ix2 p k) = V c main_v32 (ix2 r k) := by
  obtain ⟨-, -, e0, e1, -⟩ := idx_facts t
  unfold iblk2
  rw [View.read_apply]
  show V c main_v32 _ = V c main_v32 _
  refine congrArg _ (funext fun a => Fin.ext ?_)
  match a with
  | ⟨0, _⟩ => show win2_1.index t (0 : Fin 2) * 2000 + 1 * p.val = r.val; rw [e0, hr]; omega
  | ⟨1, _⟩ => show win2_1.index t (1 : Fin 2) * 256 + 1 * k.val = k.val; rw [e1]; omega

/-- The same for the third row input. -/
theorem iblk_rows2 (p : Fin 2000) (k : Fin 256) (r : Fin 150000) (hr : r.val = t.val * 2000 + p.val) :
    (iblk2 V c 2 t : Vec Ideal S2000x256 .f32) (ix2 p k) = V c main_v39 (ix2 r k) := by
  obtain ⟨-, -, -, -, e0, e1, -⟩ := idx_facts t
  unfold iblk2
  rw [View.read_apply]
  show V c main_v39 _ = V c main_v39 _
  refine congrArg _ (funext fun a => Fin.ext ?_)
  match a with
  | ⟨0, _⟩ => show win2_2.index t (0 : Fin 2) * 2000 + 1 * p.val = r.val; rw [e0, hr]; omega
  | ⟨1, _⟩ => show win2_2.index t (1 : Fin 2) * 256 + 1 * k.val = k.val; rw [e1]; omega

/-- The first weight's block is the whole weight. -/
theorem iblk_weight3 (k q : Fin 256) :
    (iblk2 V c 3 t : Vec Ideal S256x256 .f32) (ix2 k q) = V c main_v54 (ix2 k q) := by
  obtain ⟨-, -, -, -, -, -, e0, e1, -⟩ := idx_facts t
  unfold iblk2
  rw [View.read_apply]
  show V c main_v54 _ = V c main_v54 _
  refine congrArg _ (funext fun a => Fin.ext ?_)
  match a with
  | ⟨0, _⟩ => show win2_3.index t (0 : Fin 2) * 256 + 1 * k.val = k.val; rw [e0]; omega
  | ⟨1, _⟩ => show win2_3.index t (1 : Fin 2) * 256 + 1 * q.val = q.val; rw [e1]; omega

/-- The second weight's block is the whole weight. -/
theorem iblk_weight4 (k q : Fin 256) :
    (iblk2 V c 4 t : Vec Ideal S256x256 .f32) (ix2 k q) = V c main_v55 (ix2 k q) := by
  obtain ⟨-, -, -, -, -, -, -, -, e0, e1, -⟩ := idx_facts t
  unfold iblk2
  rw [View.read_apply]
  show V c main_v55 _ = V c main_v55 _
  refine congrArg _ (funext fun a => Fin.ext ?_)
  match a with
  | ⟨0, _⟩ => show win2_4.index t (0 : Fin 2) * 256 + 1 * k.val = k.val; rw [e0]; omega
  | ⟨1, _⟩ => show win2_4.index t (1 : Fin 2) * 256 + 1 * q.val = q.val; rw [e1]; omega

/-- The third weight's block is the whole weight. -/
theorem iblk_weight5 (k q : Fin 256) :
    (iblk2 V c 5 t : Vec Ideal S256x256 .f32) (ix2 k q) = V c main_v56 (ix2 k q) := by
  obtain ⟨-, -, -, -, -, -, -, -, -, -, e0, e1, -⟩ := idx_facts t
  unfold iblk2
  rw [View.read_apply]
  show V c main_v56 _ = V c main_v56 _
  refine congrArg _ (funext fun a => Fin.ext ?_)
  match a with
  | ⟨0, _⟩ => show win2_5.index t (0 : Fin 2) * 256 + 1 * k.val = k.val; rw [e0]; omega
  | ⟨1, _⟩ => show win2_5.index t (1 : Fin 2) * 256 + 1 * q.val = q.val; rw [e1]; omega

/-- The bias's block is the whole one-row bias. -/
theorem iblk_bias6 (q : Fin 256) :
    (iblk2 V c 6 t : Vec Ideal S1x256 .f32) (ix2 (0 : Fin 1) q) = V c main_v57 (ix2 (0 : Fin 1) q) := by
  obtain ⟨-, -, -, -, -, -, -, -, -, -, -, -, e0, e1, -⟩ := idx_facts t
  unfold iblk2
  rw [View.read_apply]
  show V c main_v57 _ = V c main_v57 _
  refine congrArg _ (funext fun a => Fin.ext ?_)
  match a with
  | ⟨0, _⟩ => show win2_6.index t (0 : Fin 2) * 1 + 1 * (0 : Fin 1).val = (0 : Fin 1).val; rw [e0]; rfl
  | ⟨1, _⟩ => show win2_6.index t (1 : Fin 2) * 256 + 1 * q.val = q.val; rw [e1]; omega

/-- The body's result on the blocks at point `t`, at row `p` and column `q`, is the updated edge entry at row
    `2000 t + p`. -/
theorem body_at (p : Fin 2000) (q : Fin 256) (r : Fin 150000) (hr : r.val = t.val * 2000 + p.val) :
    k2_pay1 (iblk2 V c 0 t) (iblk2 V c 1 t) (iblk2 V c 2 t) (iblk2 V c 3 t) (iblk2 V c 4 t) (iblk2 V c 5 t) (iblk2 V c 6 t) (ix2 p q)
      = updAt (V c main_arg0) (V c main_v32) (V c main_v39) (V c main_v54) (V c main_v55) (V c main_v56)
          (fun j => V c main_v57 (ix2 (0 : Fin 1) j)) r q := by
  rw [payload_at]
  unfold updAt
  refine congrArg₂ (· + ·) (congrArg₂ (· + ·) (congrArg₂ (· + ·) ?_ ?_) ?_) ?_
  · exact Finset.sum_congr rfl fun k _ => by rw [iblk_rows0 V c t p k r hr, iblk_weight3 V c t k q]
  · exact Finset.sum_congr rfl fun k _ => by rw [iblk_rows1 V c t p k r hr, iblk_weight4 V c t k q]
  · exact Finset.sum_congr rfl fun k _ => by rw [iblk_rows2 V c t p k r hr, iblk_weight5 V c t k q]
  · exact iblk_bias6 V c t q

/-- Where the output's block at point `t` puts its row `p`, column `q`. -/
theorem out_emb (p : Fin 2000) (q : Fin 256) (r : Fin 150000) (hr : r.val = t.val * 2000 + p.val) :
    ((cfg2.win 7).blk t).view.emb (ix2 p q) = ix2 r q := by
  obtain ⟨-, -, -, -, -, -, -, -, -, -, -, -, -, -, e0, e1⟩ := idx_facts t
  refine funext fun a => Fin.ext ?_
  match a with
  | ⟨0, _⟩ => show win2_7.index t (0 : Fin 2) * 2000 + 1 * p.val = r.val; rw [e0, hr]; omega
  | ⟨1, _⟩ => show win2_7.index t (1 : Fin 2) * 256 + 1 * q.val = q.val; rw [e1]; omega

/-- The body's result on the blocks at point `t` is the point's block of the updated edge array. -/
theorem body_block (j : S2000x256.Idx) :
    k2_pay1 (iblk2 V c 0 t) (iblk2 V c 1 t) (iblk2 V c 2 t) (iblk2 V c 3 t) (iblk2 V c 4 t) (iblk2 V c 5 t) (iblk2 V c 6 t) j
      = updVal3 (V c main_arg0) (V c main_v32) (V c main_v39) (V c main_v54) (V c main_v55) (V c main_v56)
          (fun j => V c main_v57 (ix2 (0 : Fin 1) j)) (((cfg2.win 7).blk t).view.emb j) := by
  obtain ⟨p, q, rfl⟩ : ∃ (p : Fin 2000) (q : Fin 256), j = ix2 p q := ⟨j 0, j 1, eq_ix2 j⟩
  have hN : cfg2.N = 75 := N_2
  have ht : t.val < 75 := by have := t.isLt; omega
  have hp : p.val < 2000 := p.isLt
  rw [out_emb t p q ⟨t.val * 2000 + p.val, by omega⟩ rfl]
  exact body_at V c t p q ⟨t.val * 2000 + p.val, by omega⟩ rfl

/-! ## From the blocks to the array -/

/-- What point `t` writes back is its block of the updated edge array. -/
theorem flushed_eq :
    (dat2 (F := Ideal) V c).flushed 7 t
      = ((cfg2.win 7).blk t).view.read (Elt Ideal) (updVal3 (V c main_arg0) (V c main_v32) (V c main_v39) (V c main_v54)
          (V c main_v55) (V c main_v56) (fun j => V c main_v57 (ix2 (0 : Fin 1) j))) := by
  show (cfg2.win 7).cut (grid2.coords t) ((dat2 V c).after 7 t) = _
  rw [after2_7]
  unfold out2_7
  rw [View.canon_unit_zero hz]
  simp only [View.ld_unit_zero (S := S2000x256) hz, View.ld_unit_zero (S := S256x256) hz, View.ld_unit_zero (S := S1x256) hz]
  funext j
  exact body_block V c t j

end Blocks

/-- An index of the array is in point `t`'s block iff each coordinate is in the block's range on its axis. -/
theorem mem_blk (t : Fin cfg2.N) (i : S150000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v58).slice (win2_7.rect t)).set ↔ _
  rw [View.set_slice_whole, Rect.mem_set_unit]
  exact Iff.rfl

/-- Every index of the array is in some point's block: row `r` is in the block of point `r / 2000`. -/
theorem cover (i : S150000x256.Idx) :
    ∃ t : Fin cfg2.N, (cfg2.win 7).flush t = true ∧ i ∈ ((cfg2.win 7).blk t).view.set := by
  have hi0 : (i 0).val < 150000 := (i 0).isLt
  have hi1 : (i 1).val < 256 := (i 1).isLt
  have hN : cfg2.N = 75 := N_2
  obtain ⟨t, ht⟩ : ∃ t : Fin cfg2.N, t.val = (i 0).val / 2000 := ⟨⟨(i 0).val / 2000, by omega⟩, rfl⟩
  obtain ⟨-, -, -, -, -, -, -, -, -, -, -, -, -, -, e0, e1⟩ := idx_facts t
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 256 ≤ (i 1).val ∧ (i 1).val < win2_7.index t (1 : Fin 2) * 256 + 256; omega

/-- The array region 2 leaves in `main_v58`, for any contents `V` the region is entered with. -/
theorem final (V : (c : Dev nD) → (b : Ref sig .tc) → Buf (Elt Ideal) ((c : Thread nD τ).loc b)) (c : Dev nD) :
    (dat2 (F := Ideal) V c).arrAt 7 cfg2.N
      = updVal3 (V c main_arg0) (V c main_v32) (V c main_v39) (V c main_v54) (V c main_v55) (V c main_v56)
          (fun j => V c main_v57 (ix2 (0 : Fin 1) j)) :=
  (dat2 (F := Ideal) V c).arrAt_eq_of_cover 7 _ (fun t _ => flushed_eq V c t) cover

end Cert.KernelIdeal.UpdValue2

end
-- ==== Proof.KernelFold.lean ====
/-
  The kernel program's two result arrays as functions of its fourteen arguments. The buffer contents at each
  boundary of @main are a fold from the launch memory: a host stretch applies its operations, a region leaves its
  output array at what its blocks tile and every other buffer as entered. Walking the fold back from the last
  boundary: a result is the edge update of rows that the host stretch gathered from node means of the two message
  arrays, each message array being what its region left, and every argument reaches each region as launched.
-/
import proofs.«113834_j57131654971883_1_alg».proof.Proof.Gen.KernelIdeal.Frame
import proofs.«113834_j57131654971883_1_alg».proof.Proof.Spec
import proofs.«113834_j57131654971883_1_alg».proof.Proof.KernelTerms
import proofs.«113834_j57131654971883_1_alg».proof.Proof.MsgRegion0
import proofs.«113834_j57131654971883_1_alg».proof.Proof.MsgRegion1
import proofs.«113834_j57131654971883_1_alg».proof.Proof.UpdRegion2
import proofs.«113834_j57131654971883_1_alg».proof.Proof.UpdRegion3
import Idealize.ShloMosaic.Lib.StableHlo.Run
import Idealize.ShloMosaic.Lib.Pipeline.Value
import Idealize.ShloMosaic.Lib.ValueLayout

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen Cert.GraphLayer

variable (m : (ℓ : Loc nD τ sig) → Buf (Elt Ideal) ℓ) (ρ : Dev nD → PrngReg) (c : Dev nD)

/-- A buffer that no operation of a host stretch writes keeps its contents across the stretch: the stretch's
    operations listed, each one's written buffer a different reference. -/
macro "host_keeps" : tactic =>
  `(tactic| (refine StableHlo.after_of_forall_not_mem _ _ (List.forall_iff_forall_mem.mp ?_)
             simp only [hostOps0, hostOps1, hostOps2, hostOps3, List.Forall, StableHlo.nullary_writes, StableHlo.unary_writes,
               StableHlo.binary_writes, StableHlo.ternary_writes, StableHlo.reshape_writes, Finset.mem_singleton]
             first
               | exact StableHlo.devRef_ne_of_ne (by decide)
               | (repeat' apply And.intro
                  all_goals exact StableHlo.devRef_ne_of_ne (by decide))))

/-! ## Buffers that reach a boundary as launched -/

/-- Across the first host stretch (one reshape, of the first bias) every other buffer is kept. -/
theorem W1_keep (b : Ref sig .tc) (h0 : b ≠ main_v0) :
    W1 (F := Ideal) m ρ c (Proc.devRef .tc b) = m ((c : Thread nD τ).loc b) := by
  show StableHlo.after hostOps0 (W0 m ρ c) (Proc.devRef .tc b) = W0 m ρ c (Proc.devRef .tc b)
  refine StableHlo.after_of_forall_not_mem _ _ (List.forall_iff_forall_mem.mp ?_)
  simp only [hostOps0, List.Forall, StableHlo.reshape_writes, Finset.mem_singleton]
  exact StableHlo.devRef_ne_of_ne h0

/-- Up to the second message region's entry: a buffer that is neither reshaped bias and no array of region 0. -/
theorem W3_keep (b : Ref sig .tc) (h0 : b ≠ main_v0) (h2 : b ≠ main_v2) (hr0 : ∀ w, Pipeline.arrRef spec0 w ≠ b) :
    W3 (F := Ideal) m ρ c (Proc.devRef .tc b) = m ((c : Thread nD τ).loc b) := by
  have s1 : W3 (F := Ideal) m ρ c (Proc.devRef .tc b) = W2 m ρ c (Proc.devRef .tc b) := by
    show StableHlo.after hostOps1 (W2 m ρ c) (Proc.devRef .tc b) = _
    refine StableHlo.after_of_forall_not_mem _ _ (List.forall_iff_forall_mem.mp ?_)
    simp only [hostOps1, List.Forall, StableHlo.reshape_writes, Finset.mem_singleton]
    exact StableHlo.devRef_ne_of_ne h2
  exact s1.trans ((W2_of_ne m ρ c b hr0).trans (W1_keep m ρ c b h0))

/-- Up to the second message region's exit: moreover no array of region 1. -/
theorem W4_keep (b : Ref sig .tc) (h0 : b ≠ main_v0) (h2 : b ≠ main_v2) (hr0 : ∀ w, Pipeline.arrRef spec0 w ≠ b)
    (hr1 : ∀ w, Pipeline.arrRef spec1 w ≠ b) :
    W4 (F := Ideal) m ρ c (Proc.devRef .tc b) = m ((c : Thread nD τ).loc b) :=
  (W4_of_ne m ρ c b hr1).trans (W3_keep m ρ c b h0 h2 hr0)

/-! ## The biases as the message regions find them -/

/-- The first bias as region 0 finds it: the 256 entries laid as one row. -/
theorem W1_v0 (j : Fin 256) :
    W1 (F := Ideal) m ρ c (Proc.devRef .tc main_v0) (ix2 (0 : Fin 1) j) = m ((c : Thread nD τ).loc main_arg7) (ix1 j) := by
  have e : W1 (F := Ideal) m ρ c (Proc.devRef .tc main_v0)
      = shapeCast S1x256 (m ((c : Thread nD τ).loc main_arg7)) shapeCasts_S256_S1x256 := by
    show StableHlo.after hostOps0 (W0 m ρ c) (Proc.devRef .tc main_v0) = _
    after_results
    rfl
  rw [e]
  exact shapeCast_a_1a_apply _ _ _ _

/-- The second bias as region 1 finds it. -/
theorem W3_v2 (j : Fin 256) :
    W3 (F := Ideal) m ρ c (Proc.devRef .tc main_v2) (ix2 (0 : Fin 1) j) = m ((c : Thread nD τ).loc main_arg9) (ix1 j) := by
  have e : W3 (F := Ideal) m ρ c (Proc.devRef .tc main_v2)
      = shapeCast S1x256 (W2 m ρ c (Proc.devRef .tc main_arg9)) shapeCasts_S256_S1x256 := by
    show StableHlo.after hostOps1 (W2 m ρ c) (Proc.devRef .tc main_v2) = _
    after_results
    rfl
  rw [e, (W2_of_ne m ρ c main_arg9 (by decide)).trans (W1_keep m ρ c main_arg9 (by decide))]
  exact shapeCast_a_1a_apply _ _ _ _

/-! ## The two message arrays -/

/-- The messages of edge type 0: what region 0 leaves in its output array. -/
def M0 : SE.Idx → EReal := msgVal (m ((c : Thread nD τ).loc main_arg0)) (m ((c : Thread nD τ).loc main_arg6)) (fun j => m ((c : Thread nD τ).loc main_arg7) (ix1 j))
/-- The messages of edge type 1: what region 1 leaves in its output array. -/
def M1 : SE.Idx → EReal := msgVal (m ((c : Thread nD τ).loc main_arg1)) (m ((c : Thread nD τ).loc main_arg8)) (fun j => m ((c : Thread nD τ).loc main_arg9) (ix1 j))

theorem W2_v1 : W2 (F := Ideal) m ρ c (Proc.devRef .tc main_v1) = M0 m c := by
  refine (W2_arr m ρ c 3).trans ((MsgValue0.final (V1 m ρ) c).trans ?_)
  dsimp only [V1]
  rw [W1_keep m ρ c main_arg0 (by decide), W1_keep m ρ c main_arg6 (by decide)]
  unfold M0
  exact congrArg (msgVal _ _) (funext fun j => W1_v0 m ρ c j)

theorem W4_v1 : W4 (F := Ideal) m ρ c (Proc.devRef .tc main_v1) = M0 m c := by
  have s1 : W3 (F := Ideal) m ρ c (Proc.devRef .tc main_v1) = W2 m ρ c (Proc.devRef .tc main_v1) := by
    show StableHlo.after hostOps1 (W2 m ρ c) (Proc.devRef .tc main_v1) = _
    host_keeps
  exact (W4_of_ne m ρ c main_v1 (by decide)).trans (s1.trans (W2_v1 m ρ c))

theorem W4_v3 : W4 (F := Ideal) m ρ c (Proc.devRef .tc main_v3) = M1 m c := by
  refine (W4_arr m ρ c 3).trans ((MsgValue1.final (V3 m ρ) c).trans ?_)
  dsimp only [V3]
  rw [W3_keep m ρ c main_arg1 (by decide) (by decide) (by decide), W3_keep m ρ c main_arg8 (by decide) (by decide) (by decide)]
  unfold M1
  exact congrArg (msgVal _ _) (funext fun j => W3_v2 m ρ c j)

/-- The edge features of type 0 reach the edge-update regions as launched (region 0 read them through a window). -/
theorem W4_arg0 : W4 (F := Ideal) m ρ c (Proc.devRef .tc main_arg0) = m ((c : Thread nD τ).loc main_arg0) := by
  have s1 : W3 (F := Ideal) m ρ c (Proc.devRef .tc main_arg0) = W2 m ρ c (Proc.devRef .tc main_arg0) := by
    show StableHlo.after hostOps1 (W2 m ρ c) (Proc.devRef .tc main_arg0) = _
    host_keeps
  have s2 : W2 (F := Ideal) m ρ c (Proc.devRef .tc main_arg0) = W1 m ρ c (Proc.devRef .tc main_arg0) :=
    (W2_arr m ρ c 0).trans (((dat0 (V1 m ρ) c).arrAt_in 0 rfl _).trans (A_eq0 (V1 m ρ) c 0))
  exact (W4_of_ne m ρ c main_arg0 (by decide)).trans (s1.trans (s2.trans (W1_keep m ρ c main_arg0 (by decide))))

/-- The edge features of type 1 likewise (region 1 read them through a window). -/
theorem W4_arg1 : W4 (F := Ideal) m ρ c (Proc.devRef .tc main_arg1) = m ((c : Thread nD τ).loc main_arg1) :=
  (W4_arr m ρ c 0).trans ((((dat1 (V3 m ρ) c).arrAt_in 0 rfl _).trans (A_eq1 (V3 m ρ) c 0)).trans
    (W3_keep m ρ c main_arg1 (by decide) (by decide) (by decide)))

/-! ## What the edge-update regions are entered with -/

theorem W5_v32 : W5 (F := Ideal) m ρ c (Proc.devRef .tc main_v32)
    = Terms.rows (F := Ideal) (Terms.meanAgg (F := Ideal) (M0 m c) (m ((c : Thread nD τ).loc main_arg3))) (m ((c : Thread nD τ).loc main_arg2)) := by
  have e : W5 (F := Ideal) m ρ c (Proc.devRef .tc main_v32)
      = Terms.rows (F := Ideal) (Terms.meanAgg (F := Ideal) (W4 m ρ c (Proc.devRef .tc main_v1)) (W4 m ρ c (Proc.devRef .tc main_arg3))) (W4 m ρ c (Proc.devRef .tc main_arg2)) := by
    show StableHlo.after hostOps2 (W4 m ρ c) (Proc.devRef .tc main_v32) = _
    after_results_simp
    rfl
  rw [e, W4_v1, W4_keep m ρ c main_arg3 (by decide) (by decide) (by decide) (by decide), W4_keep m ρ c main_arg2 (by decide) (by decide) (by decide) (by decide)]

theorem W5_v39 : W5 (F := Ideal) m ρ c (Proc.devRef .tc main_v39)
    = Terms.rows (F := Ideal) (Terms.meanAgg (F := Ideal) (M1 m c) (m ((c : Thread nD τ).loc main_arg5))) (m ((c : Thread nD τ).loc main_arg3)) := by
  have e : W5 (F := Ideal) m ρ c (Proc.devRef .tc main_v39)
      = Terms.rows (F := Ideal) (Terms.meanAgg (F := Ideal) (W4 m ρ c (Proc.devRef .tc main_v3)) (W4 m ρ c (Proc.devRef .tc main_arg5))) (W4 m ρ c (Proc.devRef .tc main_arg3)) := by
    show StableHlo.after hostOps2 (W4 m ρ c) (Proc.devRef .tc main_v39) = _
    after_results_simp
    rfl
  rw [e, W4_v3, W4_keep m ρ c main_arg5 (by decide) (by decide) (by decide) (by decide), W4_keep m ρ c main_arg3 (by decide) (by decide) (by decide) (by decide)]

theorem W5_v46 : W5 (F := Ideal) m ρ c (Proc.devRef .tc main_v46)
    = Terms.rows (F := Ideal) (Terms.meanAgg (F := Ideal) (M0 m c) (m ((c : Thread nD τ).loc main_arg3))) (m ((c : Thread nD τ).loc main_arg4)) := by
  have e : W5 (F := Ideal) m ρ c (Proc.devRef .tc main_v46)
      = Terms.rows (F := Ideal) (Terms.meanAgg (F := Ideal) (W4 m ρ c (Proc.devRef .tc main_v1)) (W4 m ρ c (Proc.devRef .tc main_arg3))) (W4 m ρ c (Proc.devRef .tc main_arg4)) := by
    show StableHlo.after hostOps2 (W4 m ρ c) (Proc.devRef .tc main_v46) = _
    after_results_simp
    rfl
  rw [e, W4_v1, W4_keep m ρ c main_arg3 (by decide) (by decide) (by decide) (by decide), W4_keep m ρ c main_arg4 (by decide) (by decide) (by decide) (by decide)]

theorem W5_v53 : W5 (F := Ideal) m ρ c (Proc.devRef .tc main_v53)
    = Terms.rows (F := Ideal) (Terms.meanAgg (F := Ideal) (M1 m c) (m ((c : Thread nD τ).loc main_arg5))) (m ((c : Thread nD τ).loc main_arg5)) := by
  have e : W5 (F := Ideal) m ρ c (Proc.devRef .tc main_v53)
      = Terms.rows (F := Ideal) (Terms.meanAgg (F := Ideal) (W4 m ρ c (Proc.devRef .tc main_v3)) (W4 m ρ c (Proc.devRef .tc main_arg5))) (W4 m ρ c (Proc.devRef .tc main_arg5)) := by
    show StableHlo.after hostOps2 (W4 m ρ c) (Proc.devRef .tc main_v53) = _
    after_results_simp
    rfl
  rw [e, W4_v3, W4_keep m ρ c main_arg5 (by decide) (by decide) (by decide) (by decide)]

/-- A square block of rows cut from a stacked weight is that weight's row block. -/
theorem slice_rowBlock (We : FVec Ideal S768x256 .f32) (o : Nat) (ho : o + 256 ≤ 768)
    (h : S768x256.Slices ![o, 0] S256x256) :
    extractStridedSlice S256x256 ![o, 0] We h = rowBlock We o ho := by
  funext q
  obtain ⟨a, b, rfl⟩ : ∃ (a : Fin 256) (b : Fin 256), q = ix2 a b := ⟨q 0, q 1, eq_ix2 q⟩
  exact slice2_axis0_apply o We h a b _ rfl

theorem W5_v54 : W5 (F := Ideal) m ρ c (Proc.devRef .tc main_v54) = rowBlock (m ((c : Thread nD τ).loc main_arg10)) 0 (by norm_num) := by
  have e : W5 (F := Ideal) m ρ c (Proc.devRef .tc main_v54)
      = extractStridedSlice S256x256 ![0, 0] (W4 m ρ c (Proc.devRef .tc main_arg10)) slices_S768x256_S256x256_0_0 := by
    show StableHlo.after hostOps2 (W4 m ρ c) (Proc.devRef .tc main_v54) = _
    after_results_simp
  rw [e, W4_keep m ρ c main_arg10 (by decide) (by decide) (by decide) (by decide)]
  exact slice_rowBlock _ 0 _ _
theorem W5_v55 : W5 (F := Ideal) m ρ c (Proc.devRef .tc main_v55) = rowBlock (m ((c : Thread nD τ).loc main_arg10)) 256 (by norm_num) := by
  have e : W5 (F := Ideal) m ρ c (Proc.devRef .tc main_v55)
      = extractStridedSlice S256x256 ![256, 0] (W4 m ρ c (Proc.devRef .tc main_arg10)) slices_S768x256_S256x256_256_0 := by
    show StableHlo.after hostOps2 (W4 m ρ c) (Proc.devRef .tc main_v55) = _
    after_results_simp
  rw [e, W4_keep m ρ c main_arg10 (by decide) (by decide) (by decide) (by decide)]
  exact slice_rowBlock _ 256 _ _
theorem W5_v56 : W5 (F := Ideal) m ρ c (Proc.devRef .tc main_v56) = rowBlock (m ((c : Thread nD τ).loc main_arg10)) 512 (by norm_num) := by
  have e : W5 (F := Ideal) m ρ c (Proc.devRef .tc main_v56)
      = extractStridedSlice S256x256 ![512, 0] (W4 m ρ c (Proc.devRef .tc main_arg10)) slices_S768x256_S256x256_512_0 := by
    show StableHlo.after hostOps2 (W4 m ρ c) (Proc.devRef .tc main_v56) = _
    after_results_simp
  rw [e, W4_keep m ρ c main_arg10 (by decide) (by decide) (by decide) (by decide)]
  exact slice_rowBlock _ 512 _ _

theorem W5_v57 (j : Fin 256) :
    W5 (F := Ideal) m ρ c (Proc.devRef .tc main_v57) (ix2 (0 : Fin 1) j) = m ((c : Thread nD τ).loc main_arg11) (ix1 j) := by
  have e : W5 (F := Ideal) m ρ c (Proc.devRef .tc main_v57)
      = shapeCast S1x256 (W4 m ρ c (Proc.devRef .tc main_arg11)) shapeCasts_S256_S1x256 := by
    show StableHlo.after hostOps2 (W4 m ρ c) (Proc.devRef .tc main_v57) = _
    after_results_simp
    rfl
  rw [e, W4_keep m ρ c main_arg11 (by decide) (by decide) (by decide) (by decide)]
  exact shapeCast_a_1a_apply _ _ _ _

theorem W5_arg0 : W5 (F := Ideal) m ρ c (Proc.devRef .tc main_arg0) = m ((c : Thread nD τ).loc main_arg0) := by
  have s : W5 (F := Ideal) m ρ c (Proc.devRef .tc main_arg0) = W4 m ρ c (Proc.devRef .tc main_arg0) := by
    show StableHlo.after hostOps2 (W4 m ρ c) (Proc.devRef .tc main_arg0) = _
    host_keeps
  exact s.trans (W4_arg0 m ρ c)
theorem W5_arg1 : W5 (F := Ideal) m ρ c (Proc.devRef .tc main_arg1) = m ((c : Thread nD τ).loc main_arg1) := by
  have s : W5 (F := Ideal) m ρ c (Proc.devRef .tc main_arg1) = W4 m ρ c (Proc.devRef .tc main_arg1) := by
    show StableHlo.after hostOps2 (W4 m ρ c) (Proc.devRef .tc main_arg1) = _
    host_keeps
  exact s.trans (W4_arg1 m ρ c)
theorem W5_arg12 : W5 (F := Ideal) m ρ c (Proc.devRef .tc main_arg12) = m ((c : Thread nD τ).loc main_arg12) := by
  have s : W5 (F := Ideal) m ρ c (Proc.devRef .tc main_arg12) = W4 m ρ c (Proc.devRef .tc main_arg12) := by
    show StableHlo.after hostOps2 (W4 m ρ c) (Proc.devRef .tc main_arg12) = _
    host_keeps
  exact s.trans (W4_keep m ρ c main_arg12 (by decide) (by decide) (by decide) (by decide))
theorem W5_arg13 : W5 (F := Ideal) m ρ c (Proc.devRef .tc main_arg13) = m ((c : Thread nD τ).loc main_arg13) := by
  have s : W5 (F := Ideal) m ρ c (Proc.devRef .tc main_arg13) = W4 m ρ c (Proc.devRef .tc main_arg13) := by
    show StableHlo.after hostOps2 (W4 m ρ c) (Proc.devRef .tc main_arg13) = _
    host_keeps
  exact s.trans (W4_keep m ρ c main_arg13 (by decide) (by decide) (by decide) (by decide))

/-! ## The two results -/

/-- The first result as a function of the argument arrays: the edge update of type-0 features with the node means
    picked at each edge's two ends. -/
def res0 (e0 e1 : FVec Ideal S150000x256 .f32) (src0 dst0 dst1 : IVec S150000 32)
    (W0 : FVec Ideal S256x256 .f32) (b0 : FVec Ideal S256 .f32) (W1 : FVec Ideal S256x256 .f32) (b1 : FVec Ideal S256 .f32)
    (We0 : FVec Ideal S768x256 .f32) (be0 : FVec Ideal S256 .f32) : SE.Idx → EReal :=
  updVal e0
    (Terms.rows (F := Ideal) (Terms.meanAgg (F := Ideal) (msgVal e0 W0 (fun j => b0 (ix1 j))) dst0) src0)
    (Terms.rows (F := Ideal) (Terms.meanAgg (F := Ideal) (msgVal e1 W1 (fun j => b1 (ix1 j))) dst1) dst0)
    We0 (fun j => be0 (ix1 j))

/-- The second result: the same for edge type 1. -/
def res1 (e0 e1 : FVec Ideal S150000x256 .f32) (dst0 src1 dst1 : IVec S150000 32)
    (W0 : FVec Ideal S256x256 .f32) (b0 : FVec Ideal S256 .f32) (W1 : FVec Ideal S256x256 .f32) (b1 : FVec Ideal S256 .f32)
    (We1 : FVec Ideal S768x256 .f32) (be1 : FVec Ideal S256 .f32) : SE.Idx → EReal :=
  updVal e1
    (Terms.rows (F := Ideal) (Terms.meanAgg (F := Ideal) (msgVal e0 W0 (fun j => b0 (ix1 j))) dst0) src1)
    (Terms.rows (F := Ideal) (Terms.meanAgg (F := Ideal) (msgVal e1 W1 (fun j => b1 (ix1 j))) dst1) dst1)
    We1 (fun j => be1 (ix1 j))

/-- What region 2 leaves in its output array. -/
theorem W6_v58 : W6 (F := Ideal) m ρ c (Proc.devRef .tc main_v58)
    = res0 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  refine (W6_arr m ρ c 7).trans ((UpdValue2.final (V5 m ρ) c).trans ?_)
  dsimp only [V5]
  rw [W5_arg0, W5_v32, W5_v39, W5_v54, W5_v55, W5_v56]
  unfold res0 updVal M0 M1
  exact congrArg (updVal3 _ _ _ _ _ _) (funext fun j => W5_v57 m ρ c j)

/-- The first result at the last boundary: nothing after region 2 writes its output array. -/
theorem result0 : W8 (F := Ideal) m ρ c (Proc.devRef .tc main_v58)
    = res0 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  have s : W7 (F := Ideal) m ρ c (Proc.devRef .tc main_v58) = W6 m ρ c (Proc.devRef .tc main_v58) := by
    show StableHlo.after hostOps3 (W6 m ρ c) (Proc.devRef .tc main_v58) = _
    host_keeps
  exact (W8_of_ne m ρ c main_v58 (by decide)).trans (s.trans (W6_v58 m ρ c))

/-! ### The second edge-update region's entry -/

/-- Across region 2 and the last host stretch a buffer that is neither written keeps what the stretch before
    region 2 left in it. -/
theorem W7_of_W5 (b : Ref sig .tc) (hr : ∀ w, Pipeline.arrRef spec2 w ≠ b)
    (h59 : b ≠ main_v59) (h60 : b ≠ main_v60) (h61 : b ≠ main_v61) (h62 : b ≠ main_v62) :
    W7 (F := Ideal) m ρ c (Proc.devRef .tc b) = W5 m ρ c (Proc.devRef .tc b) := by
  have s : W7 (F := Ideal) m ρ c (Proc.devRef .tc b) = W6 m ρ c (Proc.devRef .tc b) := by
    show StableHlo.after hostOps3 (W6 m ρ c) (Proc.devRef .tc b) = _
    refine StableHlo.after_of_forall_not_mem _ _ (List.forall_iff_forall_mem.mp ?_)
    simp only [hostOps3, List.Forall, StableHlo.unary_writes, StableHlo.reshape_writes, Finset.mem_singleton]
    exact ⟨StableHlo.devRef_ne_of_ne h59, StableHlo.devRef_ne_of_ne h60, StableHlo.devRef_ne_of_ne h61, StableHlo.devRef_ne_of_ne h62⟩
  exact s.trans (W6_of_ne m ρ c b hr)

theorem W6_arg12 : W6 (F := Ideal) m ρ c (Proc.devRef .tc main_arg12) = m ((c : Thread nD τ).loc main_arg12) :=
  (W6_of_ne m ρ c main_arg12 (by decide)).trans (W5_arg12 m ρ c)
theorem W6_arg13 : W6 (F := Ideal) m ρ c (Proc.devRef .tc main_arg13) = m ((c : Thread nD τ).loc main_arg13) :=
  (W6_of_ne m ρ c main_arg13 (by decide)).trans (W5_arg13 m ρ c)

theorem W7_v59 : W7 (F := Ideal) m ρ c (Proc.devRef .tc main_v59) = rowBlock (m ((c : Thread nD τ).loc main_arg12)) 0 (by norm_num) := by
  have e : W7 (F := Ideal) m ρ c (Proc.devRef .tc main_v59)
      = extractStridedSlice S256x256 ![0, 0] (W6 m ρ c (Proc.devRef .tc main_arg12)) slices_S768x256_S256x256_0_0 := by
    show StableHlo.after hostOps3 (W6 m ρ c) (Proc.devRef .tc main_v59) = _
    after_results
  rw [e, W6_arg12]
  exact slice_rowBlock _ 0 _ _
theorem W7_v60 : W7 (F := Ideal) m ρ c (Proc.devRef .tc main_v60) = rowBlock (m ((c : Thread nD τ).loc main_arg12)) 256 (by norm_num) := by
  have e : W7 (F := Ideal) m ρ c (Proc.devRef .tc main_v60)
      = extractStridedSlice S256x256 ![256, 0] (W6 m ρ c (Proc.devRef .tc main_arg12)) slices_S768x256_S256x256_256_0 := by
    show StableHlo.after hostOps3 (W6 m ρ c) (Proc.devRef .tc main_v60) = _
    after_results
  rw [e, W6_arg12]
  exact slice_rowBlock _ 256 _ _
theorem W7_v61 : W7 (F := Ideal) m ρ c (Proc.devRef .tc main_v61) = rowBlock (m ((c : Thread nD τ).loc main_arg12)) 512 (by norm_num) := by
  have e : W7 (F := Ideal) m ρ c (Proc.devRef .tc main_v61)
      = extractStridedSlice S256x256 ![512, 0] (W6 m ρ c (Proc.devRef .tc main_arg12)) slices_S768x256_S256x256_512_0 := by
    show StableHlo.after hostOps3 (W6 m ρ c) (Proc.devRef .tc main_v61) = _
    after_results
  rw [e, W6_arg12]
  exact slice_rowBlock _ 512 _ _
theorem W7_v62 (j : Fin 256) :
    W7 (F := Ideal) m ρ c (Proc.devRef .tc main_v62) (ix2 (0 : Fin 1) j) = m ((c : Thread nD τ).loc main_arg13) (ix1 j) := by
  have e : W7 (F := Ideal) m ρ c (Proc.devRef .tc main_v62)
      = shapeCast S1x256 (W6 m ρ c (Proc.devRef .tc main_arg13)) shapeCasts_S256_S1x256 := by
    show StableHlo.after hostOps3 (W6 m ρ c) (Proc.devRef .tc main_v62) = _
    after_results
    rfl
  rw [e, W6_arg13]
  exact shapeCast_a_1a_apply _ _ _ _

/-- The second result at the last boundary: what region 3 leaves in its output array. -/
theorem result1 : W8 (F := Ideal) m ρ c (Proc.devRef .tc main_v63)
    = res1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg12)) (m ((c : Thread nD τ).loc main_arg13)) := by
  refine (W8_arr m ρ c 7).trans ((UpdValue3.final (V7 m ρ) c).trans ?_)
  dsimp only [V7]
  rw [W7_of_W5 m ρ c main_arg1 (by decide) (by decide) (by decide) (by decide) (by decide), W5_arg1,
    W7_of_W5 m ρ c main_v46 (by decide) (by decide) (by decide) (by decide) (by decide), W5_v46,
    W7_of_W5 m ρ c main_v53 (by decide) (by decide) (by decide) (by decide) (by decide), W5_v53,
    W7_v59, W7_v60, W7_v61]
  unfold res1 updVal M0 M1
  exact congrArg (updVal3 _ _ _ _ _ _) (funext fun j => W7_v62 m ρ c j)

end Cert.KernelIdeal.Fold

end
-- ==== Proof.RefTerms.lean ====
/-
  The reference's two results as terms of its fourteen arguments: per edge type the messages (an affine map then the
  leaky rectifier), the mean of the messages arriving at each node, the node rows picked for each edge's two ends, and
  the edge update as ONE contraction of the three rows laid side by side against the stacked weight, plus the bias.
-/
import proofs.«113834_j57131654971883_1_alg».proof.ReferenceIdeal
import proofs.«113834_j57131654971883_1_alg».proof.Proof.Gen.ReferenceIdeal

noncomputable section

namespace Cert.ReferenceIdeal.Terms

open Idealize.ShloMosaic Cert.ReferenceIdeal Cert.ReferenceIdeal.Facts₀

variable {F : FTy → Type} [FloatOps F]

/-- The affine image of the edge features: the contraction with the weight plus the bias laid along the rows. -/
def affine (e : FVec F S150000x256 .f32) (W : FVec F S256x256 .f32) (b : FVec F S256 .f32) : FVec F S150000x256 .f32 :=
  addf (Host.dotGeneral dot_S150000x256_S256x256_S150000x256_1_0_0_1_n_n none e W)
    (broadcastInDim S150000x256 ![0, 1] bcast_S1x256_S150000x256_0_1 (broadcastInDim S1x256 ![1] bcast_S256_S1x256_1 b))

/-- The leaky rectifier, entry by entry: the entry where it is at least zero, the slope times it elsewhere. -/
def leaky (x : FVec F S150000x256 .f32) : FVec F S150000x256 .f32 :=
  select (cmpf .oge x (broadcastInDim S150000x256 ![] bcast_S_S150000x256 (constant S_ .f32 0x00000000#32))) x
    (mulf (broadcastInDim S150000x256 ![] bcast_S_S150000x256 (constant S_ .f32 0x3C23D70A#32)) x)

/-- The messages of one edge type. -/
def msg (e : FVec F S150000x256 .f32) (W : FVec F S256x256 .f32) (b : FVec F S256 .f32) : FVec F S150000x256 .f32 :=
  leaky (affine e W b)

/-- The mean of the messages arriving at each node: their sum scattered by destination over the count of arrivals,
    the count taken as at least one. -/
def meanAgg (x : FVec F S150000x256 .f32) (dst : IVec S150000 32) : FVec F S50000x256 .f32 :=
  Host.divf
    (Host.scatterAdd scatter_S50000x256_S150000x1_S150000x256_1_0_0_1
      (broadcastInDim S50000x256 ![] bcast_S_S50000x256 (constant S_ .f32 0x00000000#32))
      (broadcastInDim S150000x1 ![0] bcast_S150000_S150000x1_0 dst) x)
    (broadcastInDim S50000x256 ![0, 1] bcast_S50000x1_S50000x256_0_1
      (maximumf
        (Host.scatterAdd scatter_S50000x1_S150000x1_S150000x1_1_0_0_1
          (broadcastInDim S50000x1 ![] bcast_S_S50000x1 (constant S_ .f32 0x00000000#32))
          (broadcastInDim S150000x1 ![0] bcast_S150000_S150000x1_0 dst)
          (broadcastInDim S150000x1 ![] bcast_S_S150000x1 (constant S_ .f32 0x3F800000#32)))
        (broadcastInDim S50000x1 ![] bcast_S_S50000x1 (constant S_ .f32 0x3F800000#32))))

/-- The rows of a node table picked by an index vector, a negative index counted from the end. -/
def rows (rel : FVec F S50000x256 .f32) (idx : IVec S150000 32) : FVec F S150000x256 .f32 :=
  Host.gather gather_S50000x256_S150000x1_S150000x256_1_0_n_n_0_1_1256 rel
    (broadcastInDim S150000x1 ![0] bcast_S150000_S150000x1_0
      (select (cmpi .slt idx (broadcastInDim S150000 ![] bcast_S_S150000 (constantI S_ 32 0#32)))
        (addi idx (broadcastInDim S150000 ![] bcast_S_S150000 (constantI S_ 32 50000#32))) idx))

/-- The edge update: the three rows side by side contracted with the stacked weight, plus the bias along the rows. -/
def upd (e s d : FVec F S150000x256 .f32) (We : FVec F S768x256 .f32) (be : FVec F S256 .f32) : FVec F S150000x256 .f32 :=
  addf
    (Host.dotGeneral dot_S150000x768_S768x256_S150000x256_1_0_0_1_n_n none
      (concatenate S150000x768 1 [⟨S150000x256, e⟩, ⟨S150000x256, s⟩, ⟨S150000x256, d⟩]
        concatenates_S150000x256_S150000x256_S150000x256_S150000x768_d1) We)
    (broadcastInDim S150000x256 ![0, 1] bcast_S1x256_S150000x256_0_1 (broadcastInDim S1x256 ![1] bcast_S256_S1x256_1 be))

/-- The first result: edge type 0 updated from its own features, the source's mean of type-0 messages and the
    destination's mean of type-1 messages. -/
def out0 (e0 e1 : FVec F S150000x256 .f32) (src0 dst0 dst1 : IVec S150000 32)
    (W0 : FVec F S256x256 .f32) (b0 : FVec F S256 .f32) (W1 : FVec F S256x256 .f32) (b1 : FVec F S256 .f32)
    (We0 : FVec F S768x256 .f32) (be0 : FVec F S256 .f32) : FVec F S150000x256 .f32 :=
  upd e0 (rows (meanAgg (msg e0 W0 b0) dst0) src0) (rows (meanAgg (msg e1 W1 b1) dst1) dst0) We0 be0

/-- The second result: the same for edge type 1. -/
def out1 (e0 e1 : FVec F S150000x256 .f32) (dst0 src1 dst1 : IVec S150000 32)
    (W0 : FVec F S256x256 .f32) (b0 : FVec F S256 .f32) (W1 : FVec F S256x256 .f32) (b1 : FVec F S256 .f32)
    (We1 : FVec F S768x256 .f32) (be1 : FVec F S256 .f32) : FVec F S150000x256 .f32 :=
  upd e1 (rows (meanAgg (msg e0 W0 b0) dst0) src1) (rows (meanAgg (msg e1 W1 b1) dst1) dst1) We1 be1

end Cert.ReferenceIdeal.Terms

end
-- ==== Proof.ReferenceRun.lean ====
/-
  The reference program's run read back: its @main is a straight line of host operations (the two outlined
  rectifier calls listed inline at their call sites), so every weakly fair execution terminates with each buffer at
  the fold of the operations over the launch contents; at the two result buffers that fold is the composed term
  `Terms.out0` / `Terms.out1` of the fourteen arguments, and no operation writes an argument.
-/
import proofs.«113834_j57131654971883_1_alg».proof.Proof.RefTerms
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- What a three-piece side-by-side laying writes at its own buffer: its function at the three operands' contents, each
    read at its own buffer. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same statement, in the form one rewriting pass applies. -/
theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- @main's 98 operations, in order: the eighty-four of its own and, at each of the two rectifier calls, the callee's seven over that call's buffers. -/
abbrev ops : List (HloOp τ sig (Elt F)) :=
  [ binary main_arg0 main_arg6 main_v0 ((fun l r => Host.dotGeneral dot_S150000x256_S256x256_S150000x256_1_0_0_1_n_n none l r) : (⟨S150000x256, .f32⟩ : BufTy).Contents (Elt F) → (⟨S256x256, .f32⟩ : BufTy).Contents (Elt F) → (⟨S150000x256, .f32⟩ : BufTy).Contents (Elt F)),
    unary main_arg7 main_v1 (broadcastInDim S1x256 ![1] bcast_S256_S1x256_1 : (⟨S256, .f32⟩ : BufTy).Contents (Elt F) → (⟨S1x256, .f32⟩ : BufTy).Contents (Elt F)),
    unary main_v1 main_v2 (broadcastInDim S150000x256 ![0, 1] bcast_S1x256_S150000x256_0_1 : (⟨S1x256, .f32⟩ : BufTy).Contents (Elt F) → (⟨S150000x256, .f32⟩ : BufTy).Contents (Elt F)),
    binary main_v0 main_v2 main_v3 (addf : (⟨S150000x256, .f32⟩ : BufTy).Contents (Elt F) → (⟨S150000x256, .f32⟩ : BufTy).Contents (Elt F) → (⟨S150000x256, .f32⟩ : BufTy).Contents (Elt F)),
    TRef.nullary main_call0.cst (constant S_ .f32 0x00000000#32),
    TRef.unary main_call0.cst main_call0.v0 (broadcastInDim S150000x256 ![] bcast_S_S150000x256),
    TRef.binary (.of main_v3) main_call0.v0 main_call0.v1 (cmpf .oge),
    TRef.nullary main_call0.cst_0 (constant S_ .f32 0x3C23D70A#32),
    TRef.unary main_call0.cst_0 main_call0.v2 (broadcastInDim S150000x256 ![] bcast_S_S150000x256),
    TRef.binary main_call0.v2 (.of main_v3) main_call0.v3 mulf,
    TRef.ternary main_call0.v1 (.of main_v3) main_call0.v3 main_call0.call0.v0 select,
    binary main_arg1 main_arg8 main_v5 ((fun l r => Host.dotGeneral dot_S150000x256_S256x256_S150000x256_1_0_0_1_n_n none l r) : (⟨S150000x256, .f32⟩ : BufTy).Contents (Elt F) → (⟨S256x256, .f32⟩ : BufTy).Contents (Elt F) → (⟨S150000x256, .f32⟩ : BufTy).Contents (Elt F)),
    unary main_arg9 main_v6 (broadcastInDim S1x256 ![1] bcast_S256_S1x256_1 : (⟨S256, .f32⟩ : BufTy).Contents (Elt F) → (⟨S1x256, .f32⟩ : BufTy).Contents (Elt F)),
    unary main_v6 main_v7 (broadcastInDim S150000x256 ![0, 1] bcast_S1x256_S150000x256_0_1 : (⟨S1x256, .f32⟩ : BufTy).Contents (Elt F) → (⟨S150000x256, .f32⟩ : BufTy).Contents (Elt F)),
    binary main_v5 main_v7 main_v8 (addf : (⟨S150000x256, .f32⟩ : BufTy).Contents (Elt F) → (⟨S150000x256, .f32⟩ : BufTy).Contents (Elt F) → (⟨S150000x256, .f32⟩ : BufTy).Contents (Elt F)),
    TRef.nullary main_call1.cst (constant S_ .f32 0x00000000#32),
    TRef.unary main_call1.cst main_call1.v0 (broadcastInDim S150000x256 ![] bcast_S_S150000x256),
    TRef.binary (.of main_v8) main_call1.v0 main_call1.v1 (cmpf .oge),
    TRef.nullary main_call1.cst_0 (constant S_ .f32 0x3C23D70A#32),
    TRef.unary main_call1.cst_0 main_call1.v2 (broadcastInDim S150000x256 ![] bcast_S_S150000x256),
    TRef.binary main_call1.v2 (.of main_v8) main_call1.v3 mulf,
    TRef.ternary main_call1.v1 (.of main_v8) main_call1.v3 main_call1.call0.v0 select,
    nullary main_cst (constant S_ .f32 0x00000000#32),
    unary main_cst main_v10 (broadcastInDim S50000x256 ![] bcast_S_S50000x256 : (⟨S_, .f32⟩ : BufTy).Contents (Elt F) → (⟨S50000x256, .f32⟩ : BufTy).Contents (Elt F)),
    unary main_arg3 main_v11 (broadcastInDim S150000x1 ![0] bcast_S150000_S150000x1_0 : (⟨S150000, .i32⟩ : BufTy).Contents (Elt F) → (⟨S150000x1, .i32⟩ : BufTy).Contents (Elt F)),
    ternary main_v10 main_v11 main_v4 main_v12 ((fun x i u => Host.scatterAdd scatter_S50000x256_S150000x1_S150000x256_1_0_0_1 x i u) : (⟨S50000x256, .f32⟩ : BufTy).Contents (Elt F) → (⟨S150000x1, .i32⟩ : BufTy).Contents (Elt F) → (⟨S150000x256, .f32⟩ : BufTy).Contents (Elt F) → (⟨S50000x256, .f32⟩ : BufTy).Contents (Elt F)),
    nullary main_cst_0 (constant S_ .f32 0x3F800000#32),
    unary main_cst_0 main_v13 (broadcastInDim S150000x1 ![] bcast_S_S150000x1 : (⟨S_, .f32⟩ : BufTy).Contents (Elt F) → (⟨S150000x1, .f32⟩ : BufTy).Contents (Elt F)),
    nullary main_cst_1 (constant S_ .f32 0x00000000#32),
    unary main_cst_1 main_v14 (broadcastInDim S50000x1 ![] bcast_S_S50000x1 : (⟨S_, .f32⟩ : BufTy).Contents (Elt F) → (⟨S50000x1, .f32⟩ : BufTy).Contents (Elt F)),
    unary main_arg3 main_v15 (broadcastInDim S150000x1 ![0] bcast_S150000_S150000x1_0 : (⟨S150000, .i32⟩ : BufTy).Contents (Elt F) → (⟨S150000x1, .i32⟩ : BufTy).Contents (Elt F)),
    ternary main_v14 main_v15 main_v13 main_v16 ((fun x i u => Host.scatterAdd scatter_S50000x1_S150000x1_S150000x1_1_0_0_1 x i u) : (⟨S50000x1, .f32⟩ : BufTy).Contents (Elt F) → (⟨S150000x1, .i32⟩ : BufTy).Contents (Elt F) → (⟨S150000x1, .f32⟩ : BufTy).Contents (Elt F) → (⟨S50000x1, .f32⟩ : BufTy).Contents (Elt F)),
    nullary main_cst_2 (constant S_ .f32 0x3F800000#32),
    unary main_cst_2 main_v17 (broadcastInDim S50000x1 ![] bcast_S_S50000x1 : (⟨S_, .f32⟩ : BufTy).Contents (Elt F) → (⟨S50000x1, .f32⟩ : BufTy).Contents (Elt F)),
    binary main_v16 main_v17 main_v18 (maximumf : (⟨S50000x1, .f32⟩ : BufTy).Contents (Elt F) → (⟨S50000x1, .f32⟩ : BufTy).Contents (Elt F) → (⟨S50000x1, .f32⟩ : BufTy).Contents (Elt F)),
    unary main_v18 main_v19 (broadcastInDim S50000x256 ![0, 1] bcast_S50000x1_S50000x256_0_1 : (⟨S50000x1, .f32⟩ : BufTy).Contents (Elt F) → (⟨S50000x256, .f32⟩ : BufTy).Contents (Elt F)),
    binary main_v12 main_v19 main_v20 (Host.divf : (⟨S50000x256, .f32⟩ : BufTy).Contents (Elt F) → (⟨S50000x256, .f32⟩ : BufTy).Contents (Elt F) → (⟨S50000x256, .f32⟩ : BufTy).Contents (Elt F)),
    nullary main_cst_3 (constant S_ .f32 0x00000000#32),
    unary main_cst_3 main_v21 (broadcastInDim S50000x256 ![] bcast_S_S50000x256 : (⟨S_, .f32⟩ : BufTy).Contents (Elt F) → (⟨S50000x256, .f32⟩ : BufTy).Contents (Elt F)),
    unary main_arg5 main_v22 (broadcastInDim S150000x1 ![0] bcast_S150000_S150000x1_0 : (⟨S150000, .i32⟩ : BufTy).Contents (Elt F) → (⟨S150000x1, .i32⟩ : BufTy).Contents (Elt F)),
    ternary main_v21 main_v22 main_v9 main_v23 ((fun x i u => Host.scatterAdd scatter_S50000x256_S150000x1_S150000x256_1_0_0_1 x i u) : (⟨S50000x256, .f32⟩ : BufTy).Contents (Elt F) → (⟨S150000x1, .i32⟩ : BufTy).Contents (Elt F) → (⟨S150000x256, .f32⟩ : BufTy).Contents (Elt F) → (⟨S50000x256, .f32⟩ : BufTy).Contents (Elt F)),
    nullary main_cst_4 (constant S_ .f32 0x3F800000#32),
    unary main_cst_4 main_v24 (broadcastInDim S150000x1 ![] bcast_S_S150000x1 : (⟨S_, .f32⟩ : BufTy).Contents (Elt F) → (⟨S150000x1, .f32⟩ : BufTy).Contents (Elt F)),
    nullary main_cst_5 (constant S_ .f32 0x00000000#32),
    unary main_cst_5 main_v25 (broadcastInDim S50000x1 ![] bcast_S_S50000x1 : (⟨S_, .f32⟩ : BufTy).Contents (Elt F) → (⟨S50000x1, .f32⟩ : BufTy).Contents (Elt F)),
    unary main_arg5 main_v26 (broadcastInDim S150000x1 ![0] bcast_S150000_S150000x1_0 : (⟨S150000, .i32⟩ : BufTy).Contents (Elt F) → (⟨S150000x1, .i32⟩ : BufTy).Contents (Elt F)),
    ternary main_v25 main_v26 main_v24 main_v27 ((fun x i u => Host.scatterAdd scatter_S50000x1_S150000x1_S150000x1_1_0_0_1 x i u) : (⟨S50000x1, .f32⟩ : BufTy).Contents (Elt F) → (⟨S150000x1, .i32⟩ : BufTy).Contents (Elt F) → (⟨S150000x1, .f32⟩ : BufTy).Contents (Elt F) → (⟨S50000x1, .f32⟩ : BufTy).Contents (Elt F)),
    nullary main_cst_6 (constant S_ .f32 0x3F800000#32),
    unary main_cst_6 main_v28 (broadcastInDim S50000x1 ![] bcast_S_S50000x1 : (⟨S_, .f32⟩ : BufTy).Contents (Elt F) → (⟨S50000x1, .f32⟩ : BufTy).Contents (Elt F)),
    binary main_v27 main_v28 main_v29 (maximumf : (⟨S50000x1, .f32⟩ : BufTy).Contents (Elt F) → (⟨S50000x1, .f32⟩ : BufTy).Contents (Elt F) → (⟨S50000x1, .f32⟩ : BufTy).Contents (Elt F)),
    unary main_v29 main_v30 (broadcastInDim S50000x256 ![0, 1] bcast_S50000x1_S50000x256_0_1 : (⟨S50000x1, .f32⟩ : BufTy).Contents (Elt F) → (⟨S50000x256, .f32⟩ : BufTy).Contents (Elt F)),
    binary main_v23 main_v30 main_v31 (Host.divf : (⟨S50000x256, .f32⟩ : BufTy).Contents (Elt F) → (⟨S50000x256, .f32⟩ : BufTy).Contents (Elt F) → (⟨S50000x256, .f32⟩ : BufTy).Contents (Elt F)),
    nullary main_c (constantI S_ 32 0#32),
    unary main_c main_v32 (broadcastInDim S150000 ![] bcast_S_S150000 : (⟨S_, .i32⟩ : BufTy).Contents (Elt F) → (⟨S150000, .i32⟩ : BufTy).Contents (Elt F)),
    binary main_arg2 main_v32 main_v33 (cmpi .slt : (⟨S150000, .i32⟩ : BufTy).Contents (Elt F) → (⟨S150000, .i32⟩ : BufTy).Contents (Elt F) → (⟨S150000, .i1⟩ : BufTy).Contents (Elt F)),
    nullary main_c_7 (constantI S_ 32 50000#32),
    unary main_c_7 main_v34 (broadcastInDim S150000 ![] bcast_S_S150000 : (⟨S_, .i32⟩ : BufTy).Contents (Elt F) → (⟨S150000, .i32⟩ : BufTy).Contents (Elt F)),
    binary main_arg2 main_v34 main_v35 (addi : (⟨S150000, .i32⟩ : BufTy).Contents (Elt F) → (⟨S150000, .i32⟩ : BufTy).Contents (Elt F) → (⟨S150000, .i32⟩ : BufTy).Contents (Elt F)),
    ternary main_v33 main_v35 main_arg2 main_v36 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v36 main_v37 (broadcastInDim S150000x1 ![0] bcast_S150000_S150000x1_0 : (⟨S150000, .i32⟩ : BufTy).Contents (Elt F) → (⟨S150000x1, .i32⟩ : BufTy).Contents (Elt F)),
    binary main_v20 main_v37 main_v38 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)),
    nullary main_c_8 (constantI S_ 32 0#32),
    unary main_c_8 main_v39 (broadcastInDim S150000 ![] bcast_S_S150000 : (⟨S_, .i32⟩ : BufTy).Contents (Elt F) → (⟨S150000, .i32⟩ : BufTy).Contents (Elt F)),
    binary main_arg3 main_v39 main_v40 (cmpi .slt : (⟨S150000, .i32⟩ : BufTy).Contents (Elt F) → (⟨S150000, .i32⟩ : BufTy).Contents (Elt F) → (⟨S150000, .i1⟩ : BufTy).Contents (Elt F)),
    nullary main_c_9 (constantI S_ 32 50000#32),
    unary main_c_9 main_v41 (broadcastInDim S150000 ![] bcast_S_S150000 : (⟨S_, .i32⟩ : BufTy).Contents (Elt F) → (⟨S150000, .i32⟩ : BufTy).Contents (Elt F)),
    binary main_arg3 main_v41 main_v42 (addi : (⟨S150000, .i32⟩ : BufTy).Contents (Elt F) → (⟨S150000, .i32⟩ : BufTy).Contents (Elt F) → (⟨S150000, .i32⟩ : BufTy).Contents (Elt F)),
    ternary main_v40 main_v42 main_arg3 main_v43 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v43 main_v44 (broadcastInDim S150000x1 ![0] bcast_S150000_S150000x1_0 : (⟨S150000, .i32⟩ : BufTy).Contents (Elt F) → (⟨S150000x1, .i32⟩ : BufTy).Contents (Elt F)),
    binary main_v31 main_v44 main_v45 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)),
    nary ![main_arg0, main_v38, main_v45] main_v46 (fun u => concatenate S150000x768 1 [⟨S150000x256, u 0⟩, ⟨S150000x256, u 1⟩, ⟨S150000x256, u 2⟩] concatenates_S150000x256_S150000x256_S150000x256_S150000x768_d1),
    binary main_v46 main_arg10 main_v47 ((fun l r => Host.dotGeneral dot_S150000x768_S768x256_S150000x256_1_0_0_1_n_n none l r) : (⟨S150000x768, .f32⟩ : BufTy).Contents (Elt F) → (⟨S768x256, .f32⟩ : BufTy).Contents (Elt F) → (⟨S150000x256, .f32⟩ : BufTy).Contents (Elt F)),
    unary main_arg11 main_v48 (broadcastInDim S1x256 ![1] bcast_S256_S1x256_1 : (⟨S256, .f32⟩ : BufTy).Contents (Elt F) → (⟨S1x256, .f32⟩ : BufTy).Contents (Elt F)),
    unary main_v48 main_v49 (broadcastInDim S150000x256 ![0, 1] bcast_S1x256_S150000x256_0_1 : (⟨S1x256, .f32⟩ : BufTy).Contents (Elt F) → (⟨S150000x256, .f32⟩ : BufTy).Contents (Elt F)),
    binary main_v47 main_v49 main_v50 (addf : (⟨S150000x256, .f32⟩ : BufTy).Contents (Elt F) → (⟨S150000x256, .f32⟩ : BufTy).Contents (Elt F) → (⟨S150000x256, .f32⟩ : BufTy).Contents (Elt F)),
    nullary main_c_10 (constantI S_ 32 0#32),
    unary main_c_10 main_v51 (broadcastInDim S150000 ![] bcast_S_S150000 : (⟨S_, .i32⟩ : BufTy).Contents (Elt F) → (⟨S150000, .i32⟩ : BufTy).Contents (Elt F)),
    binary main_arg4 main_v51 main_v52 (cmpi .slt : (⟨S150000, .i32⟩ : BufTy).Contents (Elt F) → (⟨S150000, .i32⟩ : BufTy).Contents (Elt F) → (⟨S150000, .i1⟩ : BufTy).Contents (Elt F)),
    nullary main_c_11 (constantI S_ 32 50000#32),
    unary main_c_11 main_v53 (broadcastInDim S150000 ![] bcast_S_S150000 : (⟨S_, .i32⟩ : BufTy).Contents (Elt F) → (⟨S150000, .i32⟩ : BufTy).Contents (Elt F)),
    binary main_arg4 main_v53 main_v54 (addi : (⟨S150000, .i32⟩ : BufTy).Contents (Elt F) → (⟨S150000, .i32⟩ : BufTy).Contents (Elt F) → (⟨S150000, .i32⟩ : BufTy).Contents (Elt F)),
    ternary main_v52 main_v54 main_arg4 main_v55 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v55 main_v56 (broadcastInDim S150000x1 ![0] bcast_S150000_S150000x1_0 : (⟨S150000, .i32⟩ : BufTy).Contents (Elt F) → (⟨S150000x1, .i32⟩ : BufTy).Contents (Elt F)),
    binary main_v20 main_v56 main_v57 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)),
    nullary main_c_12 (constantI S_ 32 0#32),
    unary main_c_12 main_v58 (broadcastInDim S150000 ![] bcast_S_S150000 : (⟨S_, .i32⟩ : BufTy).Contents (Elt F) → (⟨S150000, .i32⟩ : BufTy).Contents (Elt F)),
    binary main_arg5 main_v58 main_v59 (cmpi .slt : (⟨S150000, .i32⟩ : BufTy).Contents (Elt F) → (⟨S150000, .i32⟩ : BufTy).Contents (Elt F) → (⟨S150000, .i1⟩ : BufTy).Contents (Elt F)),
    nullary main_c_13 (constantI S_ 32 50000#32),
    unary main_c_13 main_v60 (broadcastInDim S150000 ![] bcast_S_S150000 : (⟨S_, .i32⟩ : BufTy).Contents (Elt F) → (⟨S150000, .i32⟩ : BufTy).Contents (Elt F)),
    binary main_arg5 main_v60 main_v61 (addi : (⟨S150000, .i32⟩ : BufTy).Contents (Elt F) → (⟨S150000, .i32⟩ : BufTy).Contents (Elt F) → (⟨S150000, .i32⟩ : BufTy).Contents (Elt F)),
    ternary main_v59 main_v61 main_arg5 main_v62 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v62 main_v63 (broadcastInDim S150000x1 ![0] bcast_S150000_S150000x1_0 : (⟨S150000, .i32⟩ : BufTy).Contents (Elt F) → (⟨S150000x1, .i32⟩ : BufTy).Contents (Elt F)),
    binary main_v31 main_v63 main_v64 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)),
    nary ![main_arg1, main_v57, main_v64] main_v65 (fun u => concatenate S150000x768 1 [⟨S150000x256, u 0⟩, ⟨S150000x256, u 1⟩, ⟨S150000x256, u 2⟩] concatenates_S150000x256_S150000x256_S150000x256_S150000x768_d1),
    binary main_v65 main_arg12 main_v66 ((fun l r => Host.dotGeneral dot_S150000x768_S768x256_S150000x256_1_0_0_1_n_n none l r) : (⟨S150000x768, .f32⟩ : BufTy).Contents (Elt F) → (⟨S768x256, .f32⟩ : BufTy).Contents (Elt F) → (⟨S150000x256, .f32⟩ : BufTy).Contents (Elt F)),
    unary main_arg13 main_v67 (broadcastInDim S1x256 ![1] bcast_S256_S1x256_1 : (⟨S256, .f32⟩ : BufTy).Contents (Elt F) → (⟨S1x256, .f32⟩ : BufTy).Contents (Elt F)),
    unary main_v67 main_v68 (broadcastInDim S150000x256 ![0, 1] bcast_S1x256_S150000x256_0_1 : (⟨S1x256, .f32⟩ : BufTy).Contents (Elt F) → (⟨S150000x256, .f32⟩ : BufTy).Contents (Elt F)),
    binary main_v66 main_v68 main_v69 (addf : (⟨S150000x256, .f32⟩ : BufTy).Contents (Elt F) → (⟨S150000x256, .f32⟩ : BufTy).Contents (Elt F) → (⟨S150000x256, .f32⟩ : BufTy).Contents (Elt F)) ]

-- ninety-eight binds re-associated: the rewriting under the chain recurses once per statement
set_option maxRecDepth 8192 in
set_option maxHeartbeats 4000000 in
/-- @main is that straight line: the two windows in order, the callee's body unfolded at each call and the call's
    record at its fields, sequencing reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nary_bufs_sub .., binary_bufs_sub .., unary_bufs_sub ..,
    unary_bufs_sub .., binary_bufs_sub ..⟩

set_option maxRecDepth 8192 in
set_option maxHeartbeats 4000000 in
/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
/-- The fold at the first result buffer is the first composed term: each operation's result read at its own buffer is its function at its operands' contents, and at any other buffer what was there. -/
theorem out0_eq (V : Valuation τ sig (Elt F)) :
    after ops V (main_v50 : DevRef τ sig) = Terms.out0 (V (main_arg0 : DevRef τ sig)) (V (main_arg1 : DevRef τ sig)) (V (main_arg2 : DevRef τ sig)) (V (main_arg3 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  simp (disch := decide) only [after_cons, after_nil,
    nullary_result', unary_result', binary_result', ternary_result', nary3_result',
    nullary_result_ne', unary_result_ne', binary_result_ne', ternary_result_ne', nary_result_ne']
  rfl

set_option maxRecDepth 8192 in
set_option maxHeartbeats 4000000 in
/-- The fold at the second result buffer is the second composed term. -/
theorem out1_eq (V : Valuation τ sig (Elt F)) :
    after ops V (main_v69 : DevRef τ sig) = Terms.out1 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg12 : DevRef τ sig)) (V (main_arg13 : DevRef τ sig)) := by
  simp (disch := decide) only [after_cons, after_nil,
    nullary_result', unary_result', binary_result', ternary_result', nary3_result',
    nullary_result_ne', unary_result_ne', binary_result_ne', ternary_result_ne', nary_result_ne']
  rfl

/-! No operation writes an argument's buffer: the fold leaves each of the fourteen as it was. -/

set_option maxRecDepth 8192 in
set_option maxHeartbeats 4000000 in
theorem arg0_eq (V : Valuation τ sig (Elt F)) :
    after ops V (main_arg0 : DevRef τ sig) = V (main_arg0 : DevRef τ sig) := by
  simp (disch := decide) only [after_cons, after_nil,
    nullary_result_ne', unary_result_ne', binary_result_ne', ternary_result_ne', nary_result_ne']

set_option maxRecDepth 8192 in
set_option maxHeartbeats 4000000 in
theorem arg1_eq (V : Valuation τ sig (Elt F)) :
    after ops V (main_arg1 : DevRef τ sig) = V (main_arg1 : DevRef τ sig) := by
  simp (disch := decide) only [after_cons, after_nil,
    nullary_result_ne', unary_result_ne', binary_result_ne', ternary_result_ne', nary_result_ne']

set_option maxRecDepth 8192 in
set_option maxHeartbeats 4000000 in
theorem arg2_eq (V : Valuation τ sig (Elt F)) :
    after ops V (main_arg2 : DevRef τ sig) = V (main_arg2 : DevRef τ sig) := by
  simp (disch := decide) only [after_cons, after_nil,
    nullary_result_ne', unary_result_ne', binary_result_ne', ternary_result_ne', nary_result_ne']

set_option maxRecDepth 8192 in
set_option maxHeartbeats 4000000 in
theorem arg3_eq (V : Valuation τ sig (Elt F)) :
    after ops V (main_arg3 : DevRef τ sig) = V (main_arg3 : DevRef τ sig) := by
  simp (disch := decide) only [after_cons, after_nil,
    nullary_result_ne', unary_result_ne', binary_result_ne', ternary_result_ne', nary_result_ne']

set_option maxRecDepth 8192 in
set_option maxHeartbeats 4000000 in
theorem arg4_eq (V : Valuation τ sig (Elt F)) :
    after ops V (main_arg4 : DevRef τ sig) = V (main_arg4 : DevRef τ sig) := by
  simp (disch := decide) only [after_cons, after_nil,
    nullary_result_ne', unary_result_ne', binary_result_ne', ternary_result_ne', nary_result_ne']

set_option maxRecDepth 8192 in
set_option maxHeartbeats 4000000 in
theorem arg5_eq (V : Valuation τ sig (Elt F)) :
    after ops V (main_arg5 : DevRef τ sig) = V (main_arg5 : DevRef τ sig) := by
  simp (disch := decide) only [after_cons, after_nil,
    nullary_result_ne', unary_result_ne', binary_result_ne', ternary_result_ne', nary_result_ne']

set_option maxRecDepth 8192 in
set_option maxHeartbeats 4000000 in
theorem arg6_eq (V : Valuation τ sig (Elt F)) :
    after ops V (main_arg6 : DevRef τ sig) = V (main_arg6 : DevRef τ sig) := by
  simp (disch := decide) only [after_cons, after_nil,
    nullary_result_ne', unary_result_ne', binary_result_ne', ternary_result_ne', nary_result_ne']

set_option maxRecDepth 8192 in
set_option maxHeartbeats 4000000 in
theorem arg7_eq (V : Valuation τ sig (Elt F)) :
    after ops V (main_arg7 : DevRef τ sig) = V (main_arg7 : DevRef τ sig) := by
  simp (disch := decide) only [after_cons, after_nil,
    nullary_result_ne', unary_result_ne', binary_result_ne', ternary_result_ne', nary_result_ne']

set_option maxRecDepth 8192 in
set_option maxHeartbeats 4000000 in
theorem arg8_eq (V : Valuation τ sig (Elt F)) :
    after ops V (main_arg8 : DevRef τ sig) = V (main_arg8 : DevRef τ sig) := by
  simp (disch := decide) only [after_cons, after_nil,
    nullary_result_ne', unary_result_ne', binary_result_ne', ternary_result_ne', nary_result_ne']

set_option maxRecDepth 8192 in
set_option maxHeartbeats 4000000 in
theorem arg9_eq (V : Valuation τ sig (Elt F)) :
    after ops V (main_arg9 : DevRef τ sig) = V (main_arg9 : DevRef τ sig) := by
  simp (disch := decide) only [after_cons, after_nil,
    nullary_result_ne', unary_result_ne', binary_result_ne', ternary_result_ne', nary_result_ne']

set_option maxRecDepth 8192 in
set_option maxHeartbeats 4000000 in
theorem arg10_eq (V : Valuation τ sig (Elt F)) :
    after ops V (main_arg10 : DevRef τ sig) = V (main_arg10 : DevRef τ sig) := by
  simp (disch := decide) only [after_cons, after_nil,
    nullary_result_ne', unary_result_ne', binary_result_ne', ternary_result_ne', nary_result_ne']

set_option maxRecDepth 8192 in
set_option maxHeartbeats 4000000 in
theorem arg11_eq (V : Valuation τ sig (Elt F)) :
    after ops V (main_arg11 : DevRef τ sig) = V (main_arg11 : DevRef τ sig) := by
  simp (disch := decide) only [after_cons, after_nil,
    nullary_result_ne', unary_result_ne', binary_result_ne', ternary_result_ne', nary_result_ne']

set_option maxRecDepth 8192 in
set_option maxHeartbeats 4000000 in
theorem arg12_eq (V : Valuation τ sig (Elt F)) :
    after ops V (main_arg12 : DevRef τ sig) = V (main_arg12 : DevRef τ sig) := by
  simp (disch := decide) only [after_cons, after_nil,
    nullary_result_ne', unary_result_ne', binary_result_ne', ternary_result_ne', nary_result_ne']

set_option maxRecDepth 8192 in
set_option maxHeartbeats 4000000 in
theorem arg13_eq (V : Valuation τ sig (Elt F)) :
    after ops V (main_arg13 : DevRef τ sig) = V (main_arg13 : DevRef τ sig) := by
  simp (disch := decide) only [after_cons, after_nil,
    nullary_result_ne', unary_result_ne', binary_result_ne', ternary_result_ne', nary_result_ne']

/-- On the one device, for any float values, from any memory with zero counters: every weakly fair execution of the
    reference's @main terminates with the two results at their composed terms of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = Terms.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v69)
          = Terms.out1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v50).trans (out0_eq _), (h c main_v69).trans (out1_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m ρ)

end Cert.ReferenceIdeal.Value

end
-- ==== Proof.RefRead.lean ====
/-
  The reference's messages and edge update read index by index on the extended reals. A message entry is the leaky
  rectifier of the 256-term contraction plus the bias entry. An updated entry is the 768-term contraction of the three
  rows laid side by side: term k < 256 comes from the first row, 256 ≤ k < 512 from the second, the rest from the
  third, so the sum regroups into the three 256-term block sums against the three row blocks of the stacked weight —
  a regrouping of one finite sum, which needs no finiteness.
-/
import proofs.«113834_j57131654971883_1_alg».proof.Proof.Spec
import proofs.«113834_j57131654971883_1_alg».proof.Proof.RefTerms
import Idealize.ShloMosaic.Lib.Pipeline.Value
import Idealize.ShloMosaic.Lib.ValueLayout

noncomputable section

namespace Cert.ReferenceIdeal.AtIndex

open Idealize.ShloMosaic Idealize.ShloMosaic.ValueIdx Cert.ReferenceIdeal Cert.ReferenceIdeal.Facts₀ Cert.GraphLayer

/-! ## The bias laid along the rows, and a splat constant, read at an entry -/

/-- The bias vector broadcast to one row and then down the rows reads, at row `r` and column `j`, its entry `j`. -/
theorem bias_apply (b : FVec Ideal S256 .f32) (r : Fin 150000) (j : Fin 256) :
    broadcastInDim S150000x256 ![0, 1] bcast_S1x256_S150000x256_0_1
      (broadcastInDim S1x256 ![1] bcast_S256_S1x256_1 b) (ix2 r j) = b (ix1 j) := by
  refine (broadcastInDim_apply (s := S1x256) (t := S150000x256) ![0, 1] bcast_S1x256_S150000x256_0_1 _ (ix2 r j)
    (ix2 (⟨0, Nat.one_pos⟩ : Fin 1) j) (fun a => by
      match a with
      | ⟨0, _⟩ => rfl
      | ⟨1, _⟩ => rfl)).trans ?_
  exact broadcastInDim_apply (s := S256) (t := S1x256) ![1] bcast_S256_S1x256_1 b (ix2 (⟨0, Nat.one_pos⟩ : Fin 1) j) (ix1 j)
    (fun a => by
      match a with
      | ⟨0, _⟩ => rfl)

/-- A splat constant broadcast over the array reads the extended real its word encodes at every entry. -/
theorem splat_apply (w : BitVec 32) (i : S150000x256.Idx) :
    broadcastInDim S150000x256 ![] bcast_S_S150000x256 (constant (F := Ideal) S_ .f32 w) i = Ideal.ofBits .f32 w := rfl

/-! ## The 256-term contraction read at an entry -/

theorem lhs_msg_0 (i : S150000x256.Idx) (q : dot_S150000x256_S256x256_S150000x256_1_0_0_1_n_n.contr.Idx) :
    (dot_S150000x256_S256x256_S150000x256_1_0_0_1_n_n.lhsIdx i q 0).val = (i 0).val := by
  unfold DotDims.lhsIdx
  rw [dif_neg (show ¬(0 : Fin S150000x256.rank) ∈ dot_S150000x256_S256x256_S150000x256_1_0_0_1_n_n.lhsBatch by decide),
    dif_pos (show (0 : Fin S150000x256.rank) ∈ dot_S150000x256_S256x256_S150000x256_1_0_0_1_n_n.lhsNonContracting by decide)]
  rfl
theorem lhs_msg_1 (i : S150000x256.Idx) (q : dot_S150000x256_S256x256_S150000x256_1_0_0_1_n_n.contr.Idx) :
    (dot_S150000x256_S256x256_S150000x256_1_0_0_1_n_n.lhsIdx i q 1).val = (q ⟨0, by decide⟩).val :=
  dot_S150000x256_S256x256_S150000x256_1_0_0_1_n_n.lhsIdx_val_of_single rfl i q
theorem rhs_msg_0 (i : S150000x256.Idx) (q : dot_S150000x256_S256x256_S150000x256_1_0_0_1_n_n.contr.Idx) :
    (dot_S150000x256_S256x256_S150000x256_1_0_0_1_n_n.rhsIdx i q 0).val = (q ⟨0, by decide⟩).val :=
  dot_S150000x256_S256x256_S150000x256_1_0_0_1_n_n.rhsIdx_val_of_single rfl i q
theorem rhs_msg_1 (i : S150000x256.Idx) (q : dot_S150000x256_S256x256_S150000x256_1_0_0_1_n_n.contr.Idx) :
    (dot_S150000x256_S256x256_S150000x256_1_0_0_1_n_n.rhsIdx i q 1).val = (i 1).val := by
  unfold DotDims.rhsIdx
  rw [dif_neg (show ¬(1 : Fin S256x256.rank) ∈ dot_S150000x256_S256x256_S150000x256_1_0_0_1_n_n.rhsBatch by decide),
    dif_pos (show (1 : Fin S256x256.rank) ∈ dot_S150000x256_S256x256_S150000x256_1_0_0_1_n_n.rhsNonContracting by decide)]
  rfl

/-- The contraction of the edge features with a square weight, at row `r` and column `j`: the 256-term sum. -/
theorem dot_msg_apply (e : FVec Ideal S150000x256 .f32) (W : FVec Ideal S256x256 .f32) (r : Fin 150000) (j : Fin 256) :
    Host.dotGeneral (F := Ideal) dot_S150000x256_S256x256_S150000x256_1_0_0_1_n_n none e W (ix2 r j)
      = ∑ k : Fin 256, e (ix2 r k) * W (ix2 k j) := by
  simp only [Host.dotGeneral]
  rw [Ideal.dotGeneral_apply,
    ← Equiv.sum_comp (contrEquiv1 dot_S150000x256_S256x256_S150000x256_1_0_0_1_n_n 256 rfl rfl).symm]
  refine Finset.sum_congr rfl fun k _ => ?_
  have hk := contrEquiv1_symm_val dot_S150000x256_S256x256_S150000x256_1_0_0_1_n_n 256 rfl rfl k
  have el : dot_S150000x256_S256x256_S150000x256_1_0_0_1_n_n.lhsIdx (ix2 r j)
      ((contrEquiv1 dot_S150000x256_S256x256_S150000x256_1_0_0_1_n_n 256 rfl rfl).symm k) = ix2 r k :=
    funext fun a => Fin.ext (by
      match a with
      | ⟨0, _⟩ => exact lhs_msg_0 _ _
      | ⟨1, _⟩ => exact (lhs_msg_1 _ _).trans hk)
  have er : dot_S150000x256_S256x256_S150000x256_1_0_0_1_n_n.rhsIdx (ix2 r j)
      ((contrEquiv1 dot_S150000x256_S256x256_S150000x256_1_0_0_1_n_n 256 rfl rfl).symm k) = ix2 k j :=
    funext fun a => Fin.ext (by
      match a with
      | ⟨0, _⟩ => exact (rhs_msg_0 _ _).trans hk
      | ⟨1, _⟩ => exact rhs_msg_1 _ _)
  rw [el, er]

/-! ## The messages -/

/-- The affine image at an entry: the 256-term sum plus the bias entry. -/
theorem affine_apply (e : FVec Ideal S150000x256 .f32) (W : FVec Ideal S256x256 .f32) (b : FVec Ideal S256 .f32)
    (r : Fin 150000) (j : Fin 256) :
    Terms.affine (F := Ideal) e W b (ix2 r j) = (∑ k : Fin 256, e (ix2 r k) * W (ix2 k j)) + b (ix1 j) := by
  unfold Terms.affine
  rw [addf_apply, dot_msg_apply, bias_apply]

/-- The leaky rectifier of an array at an entry is the scalar leaky rectifier of the entry. -/
theorem leaky_apply (x : FVec Ideal S150000x256 .f32) (i : S150000x256.Idx) :
    Terms.leaky (F := Ideal) x i = lrelu (x i) := rfl

/-- The reference's messages are the message function of the specification. -/
theorem msg_eq (e : FVec Ideal S150000x256 .f32) (W : FVec Ideal S256x256 .f32) (b : FVec Ideal S256 .f32) :
    Terms.msg (F := Ideal) e W b = msgVal e W (fun j => b (ix1 j)) := by
  funext i
  obtain ⟨r, j, rfl⟩ : ∃ (r : Fin 150000) (j : Fin 256), i = ix2 r j := ⟨i 0, i 1, eq_ix2 i⟩
  show Terms.leaky (F := Ideal) (Terms.affine (F := Ideal) e W b) (ix2 r j) = msgAt e W (fun j => b (ix1 j)) r j
  rw [leaky_apply, affine_apply]
  rfl

/-! ## The 768-term contraction read at an entry -/

theorem lhs_upd_0 (i : S150000x256.Idx) (q : dot_S150000x768_S768x256_S150000x256_1_0_0_1_n_n.contr.Idx) :
    (dot_S150000x768_S768x256_S150000x256_1_0_0_1_n_n.lhsIdx i q 0).val = (i 0).val := by
  unfold DotDims.lhsIdx
  rw [dif_neg (show ¬(0 : Fin S150000x768.rank) ∈ dot_S150000x768_S768x256_S150000x256_1_0_0_1_n_n.lhsBatch by decide),
    dif_pos (show (0 : Fin S150000x768.rank) ∈ dot_S150000x768_S768x256_S150000x256_1_0_0_1_n_n.lhsNonContracting by decide)]
  rfl
theorem lhs_upd_1 (i : S150000x256.Idx) (q : dot_S150000x768_S768x256_S150000x256_1_0_0_1_n_n.contr.Idx) :
    (dot_S150000x768_S768x256_S150000x256_1_0_0_1_n_n.lhsIdx i q 1).val = (q ⟨0, by decide⟩).val :=
  dot_S150000x768_S768x256_S150000x256_1_0_0_1_n_n.lhsIdx_val_of_single rfl i q
theorem rhs_upd_0 (i : S150000x256.Idx) (q : dot_S150000x768_S768x256_S150000x256_1_0_0_1_n_n.contr.Idx) :
    (dot_S150000x768_S768x256_S150000x256_1_0_0_1_n_n.rhsIdx i q 0).val = (q ⟨0, by decide⟩).val :=
  dot_S150000x768_S768x256_S150000x256_1_0_0_1_n_n.rhsIdx_val_of_single rfl i q
theorem rhs_upd_1 (i : S150000x256.Idx) (q : dot_S150000x768_S768x256_S150000x256_1_0_0_1_n_n.contr.Idx) :
    (dot_S150000x768_S768x256_S150000x256_1_0_0_1_n_n.rhsIdx i q 1).val = (i 1).val := by
  unfold DotDims.rhsIdx
  rw [dif_neg (show ¬(1 : Fin S768x256.rank) ∈ dot_S150000x768_S768x256_S150000x256_1_0_0_1_n_n.rhsBatch by decide),
    dif_pos (show (1 : Fin S768x256.rank) ∈ dot_S150000x768_S768x256_S150000x256_1_0_0_1_n_n.rhsNonContracting by decide)]
  rfl

/-- The contraction of a 768-wide row array with the stacked weight, at row `r` and column `j`: the 768-term sum. -/
theorem dot_upd_apply (x : FVec Ideal S150000x768 .f32) (We : FVec Ideal S768x256 .f32) (r : Fin 150000) (j : Fin 256) :
    Host.dotGeneral (F := Ideal) dot_S150000x768_S768x256_S150000x256_1_0_0_1_n_n none x We (ix2 r j)
      = ∑ k : Fin 768, x (ix2 r k) * We (ix2 k j) := by
  simp only [Host.dotGeneral]
  rw [Ideal.dotGeneral_apply,
    ← Equiv.sum_comp (contrEquiv1 dot_S150000x768_S768x256_S150000x256_1_0_0_1_n_n 768 rfl rfl).symm]
  refine Finset.sum_congr rfl fun k _ => ?_
  have hk := contrEquiv1_symm_val dot_S150000x768_S768x256_S150000x256_1_0_0_1_n_n 768 rfl rfl k
  have el : dot_S150000x768_S768x256_S150000x256_1_0_0_1_n_n.lhsIdx (ix2 r j)
      ((contrEquiv1 dot_S150000x768_S768x256_S150000x256_1_0_0_1_n_n 768 rfl rfl).symm k) = ix2 r k :=
    funext fun a => Fin.ext (by
      match a with
      | ⟨0, _⟩ => exact lhs_upd_0 _ _
      | ⟨1, _⟩ => exact (lhs_upd_1 _ _).trans hk)
  have er : dot_S150000x768_S768x256_S150000x256_1_0_0_1_n_n.rhsIdx (ix2 r j)
      ((contrEquiv1 dot_S150000x768_S768x256_S150000x256_1_0_0_1_n_n 768 rfl rfl).symm k) = ix2 k j :=
    funext fun a => Fin.ext (by
      match a with
      | ⟨0, _⟩ => exact (rhs_upd_0 _ _).trans hk
      | ⟨1, _⟩ => exact rhs_upd_1 _ _)
  rw [el, er]

/-! ## The three rows laid side by side, read at an entry of each third -/

/-- Column `o + k` of the 768-wide row, `o` the start of a third. -/
abbrev col (o : Nat) (ho : o + 256 ≤ 768) (k : Fin 256) : Fin 768 := ⟨o + k.val, by have := k.isLt; omega⟩

/-- The first third of the side-by-side array is the first array. -/
theorem cat_apply_0 (e s d : FVec Ideal S150000x256 .f32) (r : Fin 150000) (k : Fin 256) :
    concatenate S150000x768 1 [⟨S150000x256, e⟩, ⟨S150000x256, s⟩, ⟨S150000x256, d⟩]
      concatenates_S150000x256_S150000x256_S150000x256_S150000x768_d1 (ix2 r (col 0 (by norm_num) k)) = e (ix2 r k) :=
  concatenate_apply_piece (t := S150000x768) 1 [⟨S150000x256, e⟩, ⟨S150000x256, s⟩, ⟨S150000x256, d⟩]
    concatenates_S150000x256_S150000x256_S150000x256_S150000x768_d1 (ix2 r (col 0 (by norm_num) k))
    0 (by show (0 : Nat) < 3; omega) S150000x256 e rfl rfl 0 rfl (ix2 r k)
    (fun b => by
      match b with
      | ⟨0, _⟩ => exact fun _ => rfl
      | ⟨1, _⟩ => exact fun h => absurd rfl h)
    rfl

/-- The second third is the second array. -/
theorem cat_apply_1 (e s d : FVec Ideal S150000x256 .f32) (r : Fin 150000) (k : Fin 256) :
    concatenate S150000x768 1 [⟨S150000x256, e⟩, ⟨S150000x256, s⟩, ⟨S150000x256, d⟩]
      concatenates_S150000x256_S150000x256_S150000x256_S150000x768_d1 (ix2 r (col 256 (by norm_num) k)) = s (ix2 r k) :=
  concatenate_apply_piece (t := S150000x768) 1 [⟨S150000x256, e⟩, ⟨S150000x256, s⟩, ⟨S150000x256, d⟩]
    concatenates_S150000x256_S150000x256_S150000x256_S150000x768_d1 (ix2 r (col 256 (by norm_num) k))
    1 (by show (1 : Nat) < 3; omega) S150000x256 s rfl rfl 256 rfl (ix2 r k)
    (fun b => by
      match b with
      | ⟨0, _⟩ => exact fun _ => rfl
      | ⟨1, _⟩ => exact fun h => absurd rfl h)
    rfl

/-- The last third is the third array. -/
theorem cat_apply_2 (e s d : FVec Ideal S150000x256 .f32) (r : Fin 150000) (k : Fin 256) :
    concatenate S150000x768 1 [⟨S150000x256, e⟩, ⟨S150000x256, s⟩, ⟨S150000x256, d⟩]
      concatenates_S150000x256_S150000x256_S150000x256_S150000x768_d1 (ix2 r (col 512 (by norm_num) k)) = d (ix2 r k) :=
  concatenate_apply_piece (t := S150000x768) 1 [⟨S150000x256, e⟩, ⟨S150000x256, s⟩, ⟨S150000x256, d⟩]
    concatenates_S150000x256_S150000x256_S150000x256_S150000x768_d1 (ix2 r (col 512 (by norm_num) k))
    2 (by show (2 : Nat) < 3; omega) S150000x256 d rfl rfl 512 rfl (ix2 r k)
    (fun b => by
      match b with
      | ⟨0, _⟩ => exact fun _ => rfl
      | ⟨1, _⟩ => exact fun h => absurd rfl h)
    rfl

/-! ## One 768-term sum is its three 256-term thirds -/

/-- A sum over 768 terms is the sum of its three consecutive blocks of 256 terms. -/
theorem sum_thirds {M : Type*} [AddCommMonoid M] (f : Fin 768 → M) :
    ∑ k : Fin 768, f k
      = ((∑ k : Fin 256, f (col 0 (by norm_num) k)) + ∑ k : Fin 256, f (col 256 (by norm_num) k))
        + ∑ k : Fin 256, f (col 512 (by norm_num) k) := by
  have h1 : ∑ k : Fin 768, f k
      = (∑ k : Fin 256, f (Fin.castAdd 512 k)) + ∑ k : Fin 512, f (Fin.natAdd 256 k) :=
    Fin.sum_univ_add (a := 256) (b := 512) f
  have h2 : ∑ k : Fin 512, f (Fin.natAdd 256 k)
      = (∑ k : Fin 256, f (Fin.natAdd 256 (Fin.castAdd 256 k))) + ∑ k : Fin 256, f (Fin.natAdd 256 (Fin.natAdd 256 k)) :=
    Fin.sum_univ_add (a := 256) (b := 256) (fun k : Fin 512 => f (Fin.natAdd 256 k))
  rw [h1, h2, ← add_assoc]
  refine congrArg₂ (· + ·) (congrArg₂ (· + ·) ?_ ?_) ?_
  · exact Finset.sum_congr rfl fun k _ => congrArg f (Fin.ext (by show k.val = 0 + k.val; omega))
  · exact Finset.sum_congr rfl fun k _ => congrArg f (Fin.ext (by show 256 + k.val = 256 + k.val; rfl))
  · exact Finset.sum_congr rfl fun k _ => congrArg f (Fin.ext (by show 256 + (256 + k.val) = 512 + k.val; omega))

/-! ## The edge update -/

/-- A row block of the stacked weight at an entry: the stacked weight at the block's row offset plus the row. -/
theorem rowBlock_apply (We : FVec Ideal S768x256 .f32) (o : Nat) (ho : o + 256 ≤ 768) (k j : Fin 256) :
    rowBlock We o ho (ix2 k j) = We (ix2 (col o ho k) j) := rfl

/-- The reference's edge update is the update function of the specification against the stacked weight. -/
theorem upd_eq (e s d : FVec Ideal S150000x256 .f32) (We : FVec Ideal S768x256 .f32) (be : FVec Ideal S256 .f32) :
    Terms.upd (F := Ideal) e s d We be = updVal e s d We (fun j => be (ix1 j)) := by
  funext i
  obtain ⟨r, j, rfl⟩ : ∃ (r : Fin 150000) (j : Fin 256), i = ix2 r j := ⟨i 0, i 1, eq_ix2 i⟩
  show Terms.upd (F := Ideal) e s d We be (ix2 r j)
    = updAt e s d (rowBlock We 0 (by norm_num)) (rowBlock We 256 (by norm_num)) (rowBlock We 512 (by norm_num))
        (fun j => be (ix1 j)) r j
  unfold Terms.upd updAt
  rw [addf_apply, bias_apply, dot_upd_apply, sum_thirds]
  refine congrArg (· + be (ix1 j)) ?_
  refine congrArg₂ (· + ·) (congrArg₂ (· + ·) ?_ ?_) ?_
  · exact Finset.sum_congr rfl fun k _ => by rw [cat_apply_0, rowBlock_apply]
  · exact Finset.sum_congr rfl fun k _ => by rw [cat_apply_1, rowBlock_apply]
  · exact Finset.sum_congr rfl fun k _ => by rw [cat_apply_2, rowBlock_apply]

end Cert.ReferenceIdeal.AtIndex

end
-- ==== Proof.Bridge.lean ====
/-
  The two programs compute one function. The reference's results are its edge update of rows gathered from node
  means of its messages; read index by index its messages and its edge update are the specification's `msgVal` and
  `updVal`, which are what the kernel program's regions leave; and the host operations in between — the scatter of the
  messages by destination, the count, the division, the gathers — are the same operations on both sides, applied to
  equal message arrays and the same index arguments, so they are carried as one term and never opened.
-/
import proofs.«113834_j57131654971883_1_alg».proof.Proof.KernelFold
import proofs.«113834_j57131654971883_1_alg».proof.Proof.RefRead

noncomputable section

namespace Cert.GraphLayer.Bridge

open Idealize.ShloMosaic Idealize.ShloMosaic.ValueIdx Cert.ReferenceIdeal

/-- The reference's first result is the kernel program's first result function of the same arguments. -/
theorem out0_eq (e0 e1 : FVec Ideal S150000x256 .f32) (src0 dst0 dst1 : IVec S150000 32)
    (W0 : FVec Ideal S256x256 .f32) (b0 : FVec Ideal S256 .f32) (W1 : FVec Ideal S256x256 .f32) (b1 : FVec Ideal S256 .f32)
    (We : FVec Ideal S768x256 .f32) (be : FVec Ideal S256 .f32) :
    Terms.out0 (F := Ideal) e0 e1 src0 dst0 dst1 W0 b0 W1 b1 We be
      = Cert.KernelIdeal.Fold.res0 e0 e1 src0 dst0 dst1 W0 b0 W1 b1 We be := by
  unfold Terms.out0 Cert.KernelIdeal.Fold.res0
  rw [AtIndex.upd_eq, AtIndex.msg_eq, AtIndex.msg_eq]
  rfl

/-- The reference's second result likewise. -/
theorem out1_eq (e0 e1 : FVec Ideal S150000x256 .f32) (dst0 src1 dst1 : IVec S150000 32)
    (W0 : FVec Ideal S256x256 .f32) (b0 : FVec Ideal S256 .f32) (W1 : FVec Ideal S256x256 .f32) (b1 : FVec Ideal S256 .f32)
    (We : FVec Ideal S768x256 .f32) (be : FVec Ideal S256 .f32) :
    Terms.out1 (F := Ideal) e0 e1 dst0 src1 dst1 W0 b0 W1 b1 We be
      = Cert.KernelIdeal.Fold.res1 e0 e1 dst0 src1 dst1 W0 b0 W1 b1 We be := by
  unfold Terms.out1 Cert.KernelIdeal.Fold.res1
  rw [AtIndex.upd_eq, AtIndex.msg_eq, AtIndex.msg_eq]
  rfl

end Cert.GraphLayer.Bridge

end
-- ==== Proof.lean ====
/-
  The certificate of a two-edge-type graph layer: per edge type a message linear with a leaky rectifier, the mean of
  the messages arriving at each node, and an edge update from the edge's own features and the node means at its two
  ends. The kernel program runs the two message linears and the two edge updates as tiled regions (each edge update
  as three 256-wide products summed, against the three row blocks of the stacked weight) and keeps the scatter and
  gather on the host; the reference runs everything on the host, the edge update as one 768-wide product of the three
  rows laid side by side.

  On the extended reals the two are one function: the products and sums are the same sums (a matrix product into a
  zero accumulator is the plain sum; a change of float format is the identity), the rectifier and its slope literal
  are the same on both sides, the host operations in between are the same operations, and the 768-term contraction is
  its three 256-term blocks regrouped — commutativity and associativity of the extended reals' addition only, so the
  precondition is never opened. The three frames: the two kernel programs' are the generated ones; the reference's is
  its run read back with the results dropped. The ideal pass rewrote nothing, so `preserves` is trivial.
-/
import proofs.«113834_j57131654971883_1_alg».proof.Defs
import proofs.«113834_j57131654971883_1_alg».proof.Proof.Gen.Kernel
import proofs.«113834_j57131654971883_1_alg».proof.Proof.Gen.Kernel.Frame
import proofs.«113834_j57131654971883_1_alg».proof.Proof.Gen.KernelIdeal
import proofs.«113834_j57131654971883_1_alg».proof.Proof.Gen.KernelIdeal.Frame
import proofs.«113834_j57131654971883_1_alg».proof.Proof.Gen.ReferenceIdeal
import proofs.«113834_j57131654971883_1_alg».proof.Proof.Gen.Pre_finite_inputs
import proofs.«113834_j57131654971883_1_alg».proof.Proof.KernelRun
import proofs.«113834_j57131654971883_1_alg».proof.Proof.KernelFold
import proofs.«113834_j57131654971883_1_alg».proof.Proof.ReferenceRun
import proofs.«113834_j57131654971883_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with each result array at the same function of the
    arguments: the kernel program's by its run and the fold through its regions, the reference's by its run, the
    agreement rewritten, and the bridge. -/
theorem algebraic : Cert.algebraic_KernelIdeal_ReferenceIdeal := by
  intro m ρ m' ρ' _ hagree
  refine ⟨fun c => Cert.KernelIdeal.Fold.res0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Fold.res1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Fold.result0 m ρ c), (h c).2.1.trans (Cert.KernelIdeal.Fold.result1 m ρ c), (h c).2.2⟩)
      (Cert.KernelIdeal.RunValue.run (F := Ideal) m ρ)
  · refine (θ_run Cert.ReferenceIdeal.defs _ _).mono (fun r h c => ?_) (Cert.ReferenceIdeal.Value.run (F := Ideal) m' ρ')
    obtain ⟨h0, h1, hargs⟩ := h c
    obtain ⟨a0, a1, a2, a3, a4, a5, a6, a7, a8, a9, a10, a11, a12, a13⟩ := hagree c
    refine ⟨?_, ?_, hargs⟩
    · rw [h0, a0, a1, a2, a3, a5, a6, a7, a8, a9, a10, a11]
      exact Cert.GraphLayer.Bridge.out0_eq _ _ _ _ _ _ _ _ _ _ _
    · rw [h1, a0, a1, a3, a4, a5, a6, a7, a8, a9, a12, a13]
      exact Cert.GraphLayer.Bridge.out1_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
